-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x257 : Shape := ⟨3, ![16, 8192, 257]⟩
abbrev S257x1281 : Shape := ⟨2, ![257, 1281]⟩
abbrev S257 : Shape := ⟨1, ![257]⟩
abbrev S_ : Shape := ⟨0, ![]⟩

class Facts : Prop where
  bcast_S_S16x8192x257 : S_.BroadcastsInDim S16x8192x257 (![] : Fin 0 → Fin S16x8192x257.rank)
  reducesTo_S16x8192x257_S_d0_1_2 : S16x8192x257.ReducesTo [0, 1, 2] S_
  h_S_ : 0 < S_.numel
  bcast_S_S257x1281 : S_.BroadcastsInDim S257x1281 (![] : Fin 0 → Fin S257x1281.rank)
  reducesTo_S257x1281_S_d0_1 : S257x1281.ReducesTo [0, 1] S_
  bcast_S_S257 : S_.BroadcastsInDim S257 (![] : Fin 0 → Fin S257.rank)
  reducesTo_S257_S_d0 : S257.ReducesTo [0] S_

variable [Facts]

def fn {F : FTy → Type} [FloatOps F] (main_arg0 : FVec F S16x8192x257 .f32) (main_arg1 : FVec F S257x1281 .f32) (main_arg2 : FVec F S257 .f32) : IVec S_ 1 :=
  let main_v0 : FVec F S16x8192x257 .f32 := Host.absf main_arg0
  let main_cst : FVec F S_ .f32 := constant S_ .f32 0x7F800000#32
  let main_v1 : FVec F S16x8192x257 .f32 := broadcastInDim S16x8192x257 ![] bcast_S_S16x8192x257 main_cst
  let main_v2 : IVec S16x8192x257 1 := cmpf .olt main_v0 main_v1
  let main_c : IVec S_ 1 := constantI S_ 1 1#1
  let main_v3 : IVec S_ 1 := (fun x v => Host.reduce IntOp.andi x v reducesTo_S16x8192x257_S_d0_1_2 h_S_) main_v2 main_c
  let main_v4 : FVec F S257x1281 .f32 := Host.absf main_arg1
  let main_cst_0 : FVec F S_ .f32 := constant S_ .f32 0x7F800000#32
  let main_v5 : FVec F S257x1281 .f32 := broadcastInDim S257x1281 ![] bcast_S_S257x1281 main_cst_0
  let main_v6 : IVec S257x1281 1 := cmpf .olt main_v4 main_v5
  let main_c_1 : IVec S_ 1 := constantI S_ 1 1#1
  let main_v7 : IVec S_ 1 := (fun x v => Host.reduce IntOp.andi x v reducesTo_S257x1281_S_d0_1 h_S_) main_v6 main_c_1
  let main_v8 : IVec S_ 1 := andi main_v3 main_v7
  let main_v9 : FVec F S257 .f32 := Host.absf main_arg2
  let main_cst_2 : FVec F S_ .f32 := constant S_ .f32 0x7F800000#32
  let main_v10 : FVec F S257 .f32 := broadcastInDim S257 ![] bcast_S_S257 main_cst_2
  let main_v11 : IVec S257 1 := cmpf .olt main_v9 main_v10
  let main_c_3 : IVec S_ 1 := constantI S_ 1 1#1
  let main_v12 : IVec S_ 1 := (fun x v => Host.reduce IntOp.andi x v reducesTo_S257_S_d0 h_S_) main_v11 main_c_3
  let main_v13 : IVec S_ 1 := andi main_v8 main_v12
  main_v13
-- ==== Kernel.lean ====
abbrev S16x8192x257 : Shape := ⟨3, ![16, 8192, 257]⟩
abbrev S257x1281 : Shape := ⟨2, ![257, 1281]⟩
abbrev S257 : Shape := ⟨1, ![257]⟩
abbrev S_ : Shape := ⟨0, ![]⟩
abbrev S16x8208x257 : Shape := ⟨3, ![16, 8208, 257]⟩
abbrev S16x8208x256 : Shape := ⟨3, ![16, 8208, 256]⟩
abbrev S16x4104x512 : Shape := ⟨3, ![16, 4104, 512]⟩
abbrev S1281x257 : Shape := ⟨2, ![1281, 257]⟩
abbrev S1x256 : Shape := ⟨2, ![1, 256]⟩
abbrev S1280x256 : Shape := ⟨2, ![1280, 256]⟩
abbrev S256 : Shape := ⟨1, ![256]⟩
abbrev S16x4096x257 : Shape := ⟨3, ![16, 4096, 257]⟩
abbrev S1x4104x512 : Shape := ⟨3, ![1, 4104, 512]⟩
abbrev S1x1024x257 : Shape := ⟨3, ![1, 1024, 257]⟩
abbrev S4104x512 : Shape := ⟨2, ![4104, 512]⟩
abbrev S1032x512 : Shape := ⟨2, ![1032, 512]⟩
abbrev S1024x256 : Shape := ⟨2, ![1024, 256]⟩
abbrev S1024x1280 : Shape := ⟨2, ![1024, 1280]⟩
abbrev S1024 : Shape := ⟨1, ![1024]⟩
abbrev S1024x1 : Shape := ⟨2, ![1024, 1]⟩
abbrev S1024x257 : Shape := ⟨2, ![1024, 257]⟩

abbrev nBuf : Space → Nat
  | .hbm => 15
  | .vmem => 7
  | .smem => 0
  | _ => 0

abbrev bufTy : (tb : Table) → Fin (tcTables nBuf tb) → BufTy
  | .hbm, ⟨0, _⟩ => ⟨S16x8192x257, .f32⟩
  | .hbm, ⟨1, _⟩ => ⟨S257x1281, .f32⟩
  | .hbm, ⟨2, _⟩ => ⟨S257, .f32⟩
  | .hbm, ⟨3, _⟩ => ⟨S_, .i32⟩
  | .hbm, ⟨4, _⟩ => ⟨S_, .f32⟩
  | .hbm, ⟨5, _⟩ => ⟨S16x8208x257, .f32⟩
  | .hbm, ⟨6, _⟩ => ⟨S16x8208x256, .f32⟩
  | .hbm, ⟨7, _⟩ => ⟨S16x4104x512, .f32⟩
  | .hbm, ⟨8, _⟩ => ⟨S1281x257, .f32⟩
  | .hbm, ⟨9, _⟩ => ⟨S1x256, .f32⟩
  | .hbm, ⟨10, _⟩ => ⟨S1280x256, .f32⟩
  | .hbm, ⟨11, _⟩ => ⟨S1280x256, .bf16⟩
  | .hbm, ⟨12, _⟩ => ⟨S256, .f32⟩
  | .hbm, ⟨13, _⟩ => ⟨S1x256, .f32⟩
  | .hbm, ⟨14, _⟩ => ⟨S16x4096x257, .f32⟩
  | .local _ .vmem, ⟨0, _⟩ => ⟨S1x4104x512, .f32⟩
  | .local _ .vmem, ⟨1, _⟩ => ⟨S1x4104x512, .f32⟩
  | .local _ .vmem, ⟨2, _⟩ => ⟨S1x256, .f32⟩
  | .local _ .vmem, ⟨3, _⟩ => ⟨S1280x256, .bf16⟩
  | .local _ .vmem, ⟨4, _⟩ => ⟨S1x256, .f32⟩
  | .local _ .vmem, ⟨5, _⟩ => ⟨S1x1024x257, .f32⟩
  | .local _ .vmem, ⟨6, _⟩ => ⟨S1x1024x257, .f32⟩
  | _, _ => ⟨S16x8192x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v4 : Index := Scalar.indexCast v1
  let c0 : Index := 0#32
  ![v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4104x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1280x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x257 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  pads_S16x8192x257_S16x8208x257_000_2140_000 : S16x8192x257.Pads (![0, 2, 0] : Fin 3 → Nat) ![0, 14, 0] ![0, 0, 0] S16x8208x257
  h_S_ : 0 < S_.numel
  slices_S16x8208x257_S16x8208x256_0_0_1 : S16x8208x257.Slices ![0, 0, 1] S16x8208x256
  shapeCasts_S16x8208x256_S16x4104x512 : S16x8208x256.ShapeCasts S16x4104x512
  transposes_S257x1281_S1281x257_1_0 : S257x1281.Transposes [1, 0] S1281x257
  slices_S1281x257_S1x256_0_1 : S1281x257.Slices ![0, 1] S1x256
  slices_S1281x257_S1280x256_1_1 : S1281x257.Slices ![1, 1] S1280x256
  bitsLt_bf16_f32 : FTy.bits .bf16 < FTy.bits .f32
  slices_S257_S256_1 : S257.Slices ![1] S256
  shapeCasts_S256_S1x256 : S256.ShapeCasts S1x256
  inb_S1x4104x512_S1x4104x512_0_0_0 : ∀ a, (![0, 0, 0] : Fin 3 → Nat) a + S1x4104x512.size a ≤ S1x4104x512.size a
  squeezes_S1x4104x512_S4104x512 : S1x4104x512.Squeezes S4104x512
  h_S1032x512 : 0 < S1032x512.numel
  shapeCasts_S1032x512_S1032x512 : S1032x512.ShapeCasts S1032x512
  slices_S1032x512_o0_0_S1024x256 : S1032x512.Slices ![0, 0] S1024x256
  slices_S1032x512_o0_256_S1024x256 : S1032x512.Slices ![0, 256] S1024x256
  slices_S1032x512_o1_0_S1024x256 : S1032x512.Slices ![1, 0] S1024x256
  slices_S1032x512_o1_256_S1024x256 : S1032x512.Slices ![1, 256] S1024x256
  slices_S1032x512_o2_0_S1024x256 : S1032x512.Slices ![2, 0] S1024x256
  concatenates_S1024x256_S1024x256_S1024x256_S1024x256_S1024x256_S1024x1280_d1 : Shape.Concatenates [S1024x256, S1024x256, S1024x256, S1024x256, S1024x256] S1024x1280 1
  reduces_S1024x1280_S1024 : S1024x1280.Reduces [1] S1024
  shapeCasts_S1024_S1024x1 : S1024.ShapeCasts S1024x1
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1024x1_S1024x256 : S1024x1.Broadcasts S1024x256
  broadcasts_S1x256_S1024x256 : S1x256.Broadcasts S1024x256
  reduces_S1024x256_S1024 : S1024x256.Reduces [1] S1024
  concatenates_S1024x1_S1024x256_S1024x257_d1 : Shape.Concatenates [S1024x1, S1024x256] S1024x257 1
  inb_S1x1024x257_S1x1024x257_0_0_0 : ∀ a, (![0, 0, 0] : Fin 3 → Nat) a + S1x1024x257.size a ≤ S1x1024x257.size a
  h_S1x1024x257 : 0 < S1x1024x257.numel
  shapeCasts_S1x1024x257_S1024x257 : S1x1024x257.ShapeCasts S1024x257
  shapeCasts_S1024x257_S1x1024x257 : S1024x257.ShapeCasts S1x1024x257
  dot_S1024x1280_S1280x256_S1024x256_1_0_0_1_n_n_wf : DotDims.WF S1024x1280 S1280x256 S1024x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1032x512.size a ≤ S4104x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4104x512.size a ≤ S16x4104x512.size a
  hwx0_0 : ∀ i : grid0.Coords, EltTy.bits .f32 = 32 ∨ (Rect.block (s := S16x4104x512) S1x4104x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280x256.size a ≤ S1280x256.size a
  hwx0_2 : ∀ i : grid0.Coords, EltTy.bits .bf16 = 32 ∨ (Rect.block (s := S1280x256) S1280x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x257.size a ≤ S16x4096x257.size a
  hwx0_4 : ∀ i : grid0.Coords, EltTy.bits .f32 = 32 ∨ (Rect.block (s := S16x4096x257) S1x1024x257.size (cc0_transform_4 i) (hinb0_4 i)).WholeWords (EltTy.packing .f32)

variable [Facts₀]

def dot_S1024x1280_S1280x256_S1024x256_1_0_0_1_n_n : DotDims S1024x1280 S1280x256 S1024x256 where
  lhsContracting := [1]
  rhsContracting := [0]
  lhsNonContracting := [0]
  rhsNonContracting := [1]
  lhsBatch := []
  rhsBatch := []
  wf := dot_S1024x1280_S1280x256_S1024x256_1_0_0_1_n_n_wf

abbrev win0_0 : Pipeline.Window sig grid0 :=
  Pipeline.Window.ofSpec (Memref.whole main_v2) S1x4104x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1280x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024x257.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x8192x257 : Shape := ⟨3, ![16, 8192, 257]⟩
abbrev S257x1281 : Shape := ⟨2, ![257, 1281]⟩
abbrev S257 : Shape := ⟨1, ![257]⟩
abbrev S_ : Shape := ⟨0, ![]⟩
abbrev S16x8196x257 : Shape := ⟨3, ![16, 8196, 257]⟩
abbrev S16x8196x256 : Shape := ⟨3, ![16, 8196, 256]⟩
abbrev S4096 : Shape := ⟨1, ![4096]⟩
abbrev S4096x1 : Shape := ⟨2, ![4096, 1]⟩
abbrev S5 : Shape := ⟨1, ![5]⟩
abbrev S1x5 : Shape := ⟨2, ![1, 5]⟩
abbrev S4096x5 : Shape := ⟨2, ![4096, 5]⟩
abbrev S4096x5x1 : Shape := ⟨3, ![4096, 5, 1]⟩
abbrev S16x4096x5x256 : Shape := ⟨4, ![16, 4096, 5, 256]⟩
abbrev S16x4096x1280 : Shape := ⟨3, ![16, 4096, 1280]⟩
abbrev S16x4096 : Shape := ⟨2, ![16, 4096]⟩
abbrev S16x4096x1 : Shape := ⟨3, ![16, 4096, 1]⟩
abbrev S16x4096x1281 : Shape := ⟨3, ![16, 4096, 1281]⟩
abbrev S16x4096x257 : Shape := ⟨3, ![16, 4096, 257]⟩
abbrev S1x1x257 : Shape := ⟨3, ![1, 1, 257]⟩
abbrev S16x4096x256 : Shape := ⟨3, ![16, 4096, 256]⟩

abbrev nBuf : Space → Nat
  | .hbm => 76
  | .vmem => 0
  | .smem => 0
  | _ => 0

abbrev bufTy : (tb : Table) → Fin (tcTables nBuf tb) → BufTy
  | .hbm, ⟨0, _⟩ => ⟨S16x8192x257, .f32⟩
  | .hbm, ⟨1, _⟩ => ⟨S257x1281, .f32⟩
  | .hbm, ⟨2, _⟩ => ⟨S257, .f32⟩
  | .hbm, ⟨3, _⟩ => ⟨S_, .i32⟩
  | .hbm, ⟨4, _⟩ => ⟨S_, .f32⟩
  | .hbm, ⟨5, _⟩ => ⟨S16x8196x257, .f32⟩
  | .hbm, ⟨6, _⟩ => ⟨S16x8196x256, .f32⟩
  | .hbm, ⟨7, _⟩ => ⟨S4096, .i32⟩
  | .hbm, ⟨8, _⟩ => ⟨S4096x1, .i32⟩
  | .hbm, ⟨9, _⟩ => ⟨S_, .i32⟩
  | .hbm, ⟨10, _⟩ => ⟨S4096x1, .i32⟩
  | .hbm, ⟨11, _⟩ => ⟨S4096x1, .i32⟩
  | .hbm, ⟨12, _⟩ => ⟨S5, .i32⟩
  | .hbm, ⟨13, _⟩ => ⟨S1x5, .i32⟩
  | .hbm, ⟨14, _⟩ => ⟨S4096x5, .i32⟩
  | .hbm, ⟨15, _⟩ => ⟨S4096x5, .i32⟩
  | .hbm, ⟨16, _⟩ => ⟨S4096x5, .i32⟩
  | .hbm, ⟨17, _⟩ => ⟨S_, .i32⟩
  | .hbm, ⟨18, _⟩ => ⟨S4096x5, .i32⟩
  | .hbm, ⟨19, _⟩ => ⟨S4096x5, .i1⟩
  | .hbm, ⟨20, _⟩ => ⟨S_, .i32⟩
  | .hbm, ⟨21, _⟩ => ⟨S4096x5, .i32⟩
  | .hbm, ⟨22, _⟩ => ⟨S4096x5, .i32⟩
  | .hbm, ⟨23, _⟩ => ⟨S4096x5, .i32⟩
  | .hbm, ⟨24, _⟩ => ⟨S4096x5x1, .i32⟩
  | .hbm, ⟨25, _⟩ => ⟨S16x4096x5x256, .f32⟩
  | .hbm, ⟨26, _⟩ => ⟨S16x4096x1280, .f32⟩
  | .hbm, ⟨27, _⟩ => ⟨S16x4096x1280, .f32⟩
  | .hbm, ⟨28, _⟩ => ⟨S_, .f32⟩
  | .hbm, ⟨29, _⟩ => ⟨S16x4096, .f32⟩
  | .hbm, ⟨30, _⟩ => ⟨S16x4096x1, .f32⟩
  | .hbm, ⟨31, _⟩ => ⟨S_, .f32⟩
  | .hbm, ⟨32, _⟩ => ⟨S16x4096x1, .f32⟩
  | .hbm, ⟨33, _⟩ => ⟨S16x4096x1, .f32⟩
  | .hbm, ⟨34, _⟩ => ⟨S16x4096x1, .f32⟩
  | .hbm, ⟨35, _⟩ => ⟨S16x4096x1281, .f32⟩
  | .hbm, ⟨36, _⟩ => ⟨S16x4096x257, .f32⟩
  | .hbm, ⟨37, _⟩ => ⟨S1x1x257, .f32⟩
  | .hbm, ⟨38, _⟩ => ⟨S16x4096x257, .f32⟩
  | .hbm, ⟨39, _⟩ => ⟨S16x4096x257, .f32⟩
  | .hbm, ⟨40, _⟩ => ⟨S16x4096x256, .f32⟩
  | .hbm, ⟨41, _⟩ => ⟨S16x4096x256, .f32⟩
  | .hbm, ⟨42, _⟩ => ⟨S_, .f32⟩
  | .hbm, ⟨43, _⟩ => ⟨S16x4096, .f32⟩
  | .hbm, ⟨44, _⟩ => ⟨S16x4096x1, .f32⟩
  | .hbm, ⟨45, _⟩ => ⟨S_, .f32⟩
  | .hbm, ⟨46, _⟩ => ⟨S16x4096x1, .f32⟩
  | .hbm, ⟨47, _⟩ => ⟨S16x4096x1, .f32⟩
  | .hbm, ⟨48, _⟩ => ⟨S16x4096x1, .f32⟩
  | .hbm, ⟨49, _⟩ => ⟨S16x4096x257, .f32⟩
  | .hbm, ⟨50, _⟩ => ⟨S16x4096x256, .f32⟩
  | .hbm, ⟨51, _⟩ => ⟨S16x4096x256, .f32⟩
  | .hbm, ⟨52, _⟩ => ⟨S_, .f32⟩
  | .hbm, ⟨53, _⟩ => ⟨S16x4096, .f32⟩
  | .hbm, ⟨54, _⟩ => ⟨S16x4096x1, .f32⟩
  | .hbm, ⟨55, _⟩ => ⟨S16x4096x1, .f32⟩
  | .hbm, ⟨56, _⟩ => ⟨S_, .f32⟩
  | .hbm, ⟨57, _⟩ => ⟨S16x4096x1, .f32⟩
  | .hbm, ⟨58, _⟩ => ⟨S16x4096x1, .f32⟩
  | .hbm, ⟨59, _⟩ => ⟨S_, .f32⟩
  | .hbm, ⟨60, _⟩ => ⟨S16x4096x1, .f32⟩
  | .hbm, ⟨61, _⟩ => ⟨S16x4096x1, .f32⟩
  | .hbm, ⟨62, _⟩ => ⟨S_, .f32⟩
  | .hbm, ⟨63, _⟩ => ⟨S16x4096x1, .f32⟩
  | .hbm, ⟨64, _⟩ => ⟨S16x4096x1, .f32⟩
  | .hbm, ⟨65, _⟩ => ⟨S16x4096x256, .f32⟩
  | .hbm, ⟨66, _⟩ => ⟨S16x4096x256, .f32⟩
  | .hbm, ⟨67, _⟩ => ⟨S16x4096x256, .f32⟩
  | .hbm, ⟨68, _⟩ => ⟨S_, .f32⟩
  | .hbm, ⟨69, _⟩ => ⟨S16x4096, .f32⟩
  | .hbm, ⟨70, _⟩ => ⟨S16x4096x1, .f32⟩
  | .hbm, ⟨71, _⟩ => ⟨S_, .f32⟩
  | .hbm, ⟨72, _⟩ => ⟨S16x4096x1, .f32⟩
  | .hbm, ⟨73, _⟩ => ⟨S16x4096x1, .f32⟩
  | .hbm, ⟨74, _⟩ => ⟨S16x4096x1, .f32⟩
  | .hbm, ⟨75, _⟩ => ⟨S16x4096x257, .f32⟩
  | _, _ => ⟨S16x8192x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]

class Facts₀ : Prop where
  pads_S16x8192x257_S16x8196x257_000_220_000 : S16x8192x257.Pads (![0, 2, 0] : Fin 3 → Nat) ![0, 2, 0] ![0, 0, 0] S16x8196x257
  h_S_ : 0 < S_.numel
  slices_S16x8196x257_S16x8196x256_0_0_1 : S16x8196x257.Slices ![0, 0, 1] S16x8196x256
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S5_S1x5_1 : S5.BroadcastsInDim S1x5 (![1] : Fin 1 → Fin S1x5.rank)
  bcast_S4096x1_S4096x5_0_1 : S4096x1.BroadcastsInDim S4096x5 (![0, 1] : Fin 2 → Fin S4096x5.rank)
  bcast_S1x5_S4096x5_0_1 : S1x5.BroadcastsInDim S4096x5 (![0, 1] : Fin 2 → Fin S4096x5.rank)
  bcast_S_S4096x5 : S_.BroadcastsInDim S4096x5 (![] : Fin 0 → Fin S4096x5.rank)
  bcast_S4096x5_S4096x5x1_0_1 : S4096x5.BroadcastsInDim S4096x5x1 (![0, 1] : Fin 2 → Fin S4096x5x1.rank)
  shapeCasts_S16x4096x5x256_S16x4096x1280 : S16x4096x5x256.ShapeCasts S16x4096x1280
  reducesTo_S16x4096x1280_S16x4096_d2 : S16x4096x1280.ReducesTo [2] S16x4096
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  concatenates_S16x4096x1_S16x4096x1280_S16x4096x1281_d2 : Shape.Concatenates [S16x4096x1, S16x4096x1280] S16x4096x1281 2
  bcast_S257_S1x1x257_2 : S257.BroadcastsInDim S1x1x257 (![2] : Fin 1 → Fin S1x1x257.rank)
  bcast_S1x1x257_S16x4096x257_0_1_2 : S1x1x257.BroadcastsInDim S16x4096x257 (![0, 1, 2] : Fin 3 → Fin S16x4096x257.rank)
  slices_S16x4096x257_S16x4096x256_0_0_1 : S16x4096x257.Slices ![0, 0, 1] S16x4096x256
  reducesTo_S16x4096x256_S16x4096_d2 : S16x4096x256.ReducesTo [2] S16x4096
  concatenates_S16x4096x1_S16x4096x256_S16x4096x257_d2 : Shape.Concatenates [S16x4096x1, S16x4096x256] S16x4096x257 2
  bcast_S16x4096x1_S16x4096x256_0_1_2 : S16x4096x1.BroadcastsInDim S16x4096x256 (![0, 1, 2] : Fin 3 → Fin S16x4096x256.rank)
  gather_S16x8196x256_S4096x5x1_S16x4096x5x256_03_1_n_n_1_2_161256_wf : GatherDims.WF S16x8196x256 S4096x5x1 S16x4096x5x256 [0, 3] [1] [] [1] [] 2 ![16, 1, 256]
  dot_S16x4096x1281_S257x1281_S16x4096x257_2_1_01_0_n_n_wf : DotDims.WF S16x4096x1281 S257x1281 S16x4096x257 [2] [1] [0, 1] [0] [] []

variable [Facts₀]

def gather_S16x8196x256_S4096x5x1_S16x4096x5x256_03_1_n_n_1_2_161256 : GatherDims S16x8196x256 S4096x5x1 S16x4096x5x256 where
  offsetDims := [0, 3]
  collapsedSliceDims := [1]
  operandBatchingDims := []
  startIndicesBatchingDims := []
  startIndexMap := [1]
  indexVectorDim := 2
  sliceSizes := ![16, 1, 256]
  wf := gather_S16x8196x256_S4096x5x1_S16x4096x5x256_03_1_n_n_1_2_161256_wf
def dot_S16x4096x1281_S257x1281_S16x4096x257_2_1_01_0_n_n : DotDims S16x4096x1281 S257x1281 S16x4096x257 where
  lhsContracting := [2]
  rhsContracting := [1]
  lhsNonContracting := [0, 1]
  rhsNonContracting := [0]
  lhsBatch := []
  rhsBatch := []
  wf := dot_S16x4096x1281_S257x1281_S16x4096x257_2_1_01_0_n_n_wf

class Facts : Prop extends Facts₀ where

variable [Facts]
-- ==== Proof.KernelBody.lean ====
/-
  The frame of `Kernel`, by hand over the generated launch side: the kernel body is run once, generically in the float
  instance, on whole staging memrefs. Each grid point (batch `i 0`, tile `i 1`) loads 1032 folded rows of the batch's
  4104 × 512 block starting at row `1024 · (i 1)` — through the block with its unit batch axis squeezed away, so the
  loaded value is the block read at the embedded index (`rows5`) —, the space weights, the time weights and the bias
  whole, and stores the whole 1 × 1024 × 257 output block: its contents are the skeleton's payloads of those loads
  (`out0_4`). The inputs' buffers are left as found, so every window's staging buffer holds its block at every point;
  the output window is written whole at every point, so nothing is read back across points. From the body's triple
  the pipeline's proof data, the body obligation, the run of @main and the frame claim follow by the library's
  one-region launch theorem.
-/
import proofs.«426489_j21199958573237_3_alg».proof.Proof.Gen.Kernel.Frame
import proofs.«426489_j21199958573237_3_alg».proof.Proof.Gen.Kernel.Skeleton
import Idealize.ShloMosaic.Lib.Pipeline.FrameBody
import Idealize.ShloMosaic.Lib.Ring
import Idealize.ShloMosaic.Lib.Tactic
import Idealize.ShloMosaic.Lib.WholeRead

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- The whole of the folded-rows block, batch axis included. -/
abbrev rX : Rect S1x4104x512 := Rect.unit (s := S1x4104x512) ![0, 0, 0] S1x4104x512.size inb_S1x4104x512_S1x4104x512_0_0_0
/-- The whole of a 1 × 256 row (the time weights, the bias). -/
abbrev rRow : Rect S1x256 := Rect.unit (s := S1x256) ![0, 0] S1x256.size inb_S1x256_S1x256_0_0
/-- The whole of the 1280 × 256 space weights. -/
abbrev rW : Rect S1280x256 := Rect.unit (s := S1280x256) ![0, 0] S1280x256.size inb_S1280x256_S1280x256_0_0
/-- The whole of the output block. -/
abbrev rO : Rect S1x1024x257 := Rect.unit (s := S1x1024x257) ![0, 0, 0] S1x1024x257.size inb_S1x1024x257_S1x1024x257_0_0_0
/-- The 1032 folded rows a point reads, from row `1024 · j` of the batch's 4104. -/
abbrev rRows (i : grid0.Coords) : Rect S4104x512 := Rect.unit (s := S4104x512) (k0_off1 i) S1032x512.size (k0_off1_inb i)

/-- The 1032 × 512 folded rows the body loads at coordinates `i`, out of the batch's block `x0`: the block read at
    the placement of the loaded index in the block with its unit batch axis squeezed away. -/
def rows5 (i : grid0.Coords) (x0 : Vec F S1x4104x512 .f32) : Vec F S1032x512 .f32 :=
  fun y => x0 (rX.emb (Shape.reshapeEquiv squeezes_S1x4104x512_S4104x512.numel_eq ((rRows i).toLoadRect.idx y)))

/-! ## What the body leaves in the output window's buffer -/

/-- The projected rows of the point, before the rescaling: the skeleton's second payload of the loaded rows,
    the space weights, the time weights and the bias. -/
abbrev lin (i : grid0.Coords) (x0 : Vec F S1x4104x512 .f32) (x1 : Vec F S1x256 .f32) (x2 : Vec F S1280x256 .bf16) (x3 : Vec F S1x256 .f32) :
    FVec F S1024x256 .f32 :=
  k0_pay2 (rows5 i x0) (View.ld x2 rW) (View.ld x1 rRow) (View.ld x3 rRow)

/-- The rows' cap factor before the minimum with one: the skeleton's third payload of the same loads. -/
abbrev capf (i : grid0.Coords) (x0 : Vec F S1x4104x512 .f32) (x1 : Vec F S1x256 .f32) (x2 : Vec F S1280x256 .bf16) (x3 : Vec F S1x256 .f32) :
    FVec F S1024x1 .f32 :=
  k0_pay3 (rows5 i x0) (View.ld x2 rW) (View.ld x1 rRow) (View.ld x3 rRow)

/-- The output window's staging buffer after the body, from the input windows' blocks at coordinates `i`: its one
    store, of the whole block. -/
def out0_4 (i : grid0.Coords) (x0 : Vec F S1x4104x512 .f32) (x1 : Vec F S1x256 .f32) (x2 : Vec F S1280x256 .bf16) (x3 : Vec F S1x256 .f32) :
    Vec F S1x1024x257 .f32 :=
  View.canon [⟨rO, k0_pay1 (lin i x0 x1 x2 x3) (capf i x0 x1 x2 x3)⟩]

/-- The one store is of the whole block, so it covers it. -/
theorem cover0_4 (p0 : Vec F S1x1024x257 .f32) (y : S1x1024x257.Idx) :
    ∃ pc ∈ ([⟨rO, p0⟩] : List (View.Piece (Elt F) S1x1024x257 .f32)), y ∈ pc.1.set :=
  View.cover_of_tiled [⟨rO, p0⟩] S1x1024x257.size (by rfl) y

/-! ## The body's triple -/

set_option maxHeartbeats 1000000 in
/-- The kernel body on whole staging memrefs, the four inputs' at read contents and the output's at anything, runs to
    the continuation holding the inputs' as they were and the output's at `out0_4` of the inputs'. The load of the
    folded rows goes through the batch block with its unit axis squeezed away, at the point's row offset; the
    load of the output buffer before the store reads a value nothing uses. -/
theorem sound_kernel (c : Dev nD) (E : Set ℕ) (i : grid0.Coords)
    (arg2 : Memref sig .tc .vmem S1x4104x512 .f32) (harg2 : arg2.IsWhole)
    (arg3 : Memref sig .tc .vmem S1x256 .f32) (harg3 : arg3.IsWhole)
    (arg4 : Memref sig .tc .vmem S1280x256 .bf16) (harg4 : arg4.IsWhole)
    (arg5 : Memref sig .tc .vmem S1x256 .f32) (harg5 : arg5.IsWhole)
    (arg6 : Memref sig .tc .vmem S1x1024x257 .f32) (harg6 : arg6.IsWhole)
    (x0 : Vec F S1x4104x512 .f32) (x1 : Vec F S1x256 .f32) (x2 : Vec F S1280x256 .bf16) (x3 : Vec F S1x256 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 i x0 x1 x2 x3)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  exact View.read_writes_eq_canon _ _ _ (cover0_4 _)

/-! ## The pipeline's proof data -/

/-- The proof data of the one pipeline on core `c`: the arrays as the region finds them; after the body at point `t`
    each input's buffer at its block and the output's at `out0_4` of the input blocks at the point's coordinates;
    the scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (grid0.coords t) (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KernelIdealBody.lean ====
/-
  The frame of `KernelIdeal`, by hand over the generated launch side: the kernel body is run once, generically in the float
  instance, on whole staging memrefs. Each grid point (batch `i 0`, tile `i 1`) loads 1032 folded rows of the batch's
  4104 × 512 block starting at row `1024 · (i 1)` — through the block with its unit batch axis squeezed away, so the
  loaded value is the block read at the embedded index (`rows5`) —, the space weights, the time weights and the bias
  whole, and stores the whole 1 × 1024 × 257 output block: its contents are the skeleton's payloads of those loads
  (`out0_4`). The inputs' buffers are left as found, so every window's staging buffer holds its block at every point;
  the output window is written whole at every point, so nothing is read back across points. From the body's triple
  the pipeline's proof data, the body obligation, the run of @main and the frame claim follow by the library's
  one-region launch theorem.
-/
import proofs.«426489_j21199958573237_3_alg».proof.Proof.Gen.KernelIdeal.Frame
import proofs.«426489_j21199958573237_3_alg».proof.Proof.Gen.KernelIdeal.Skeleton
import Idealize.ShloMosaic.Lib.Pipeline.FrameBody
import Idealize.ShloMosaic.Lib.Ring
import Idealize.ShloMosaic.Lib.Tactic
import Idealize.ShloMosaic.Lib.WholeRead

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- The whole of the folded-rows block, batch axis included. -/
abbrev rX : Rect S1x4104x512 := Rect.unit (s := S1x4104x512) ![0, 0, 0] S1x4104x512.size inb_S1x4104x512_S1x4104x512_0_0_0
/-- The whole of a 1 × 256 row (the time weights, the bias). -/
abbrev rRow : Rect S1x256 := Rect.unit (s := S1x256) ![0, 0] S1x256.size inb_S1x256_S1x256_0_0
/-- The whole of the 1280 × 256 space weights. -/
abbrev rW : Rect S1280x256 := Rect.unit (s := S1280x256) ![0, 0] S1280x256.size inb_S1280x256_S1280x256_0_0
/-- The whole of the output block. -/
abbrev rO : Rect S1x1024x257 := Rect.unit (s := S1x1024x257) ![0, 0, 0] S1x1024x257.size inb_S1x1024x257_S1x1024x257_0_0_0
/-- The 1032 folded rows a point reads, from row `1024 · j` of the batch's 4104. -/
abbrev rRows (i : grid0.Coords) : Rect S4104x512 := Rect.unit (s := S4104x512) (k0_off1 i) S1032x512.size (k0_off1_inb i)

/-- The 1032 × 512 folded rows the body loads at coordinates `i`, out of the batch's block `x0`: the block read at
    the placement of the loaded index in the block with its unit batch axis squeezed away. -/
def rows5 (i : grid0.Coords) (x0 : Vec F S1x4104x512 .f32) : Vec F S1032x512 .f32 :=
  fun y => x0 (rX.emb (Shape.reshapeEquiv squeezes_S1x4104x512_S4104x512.numel_eq ((rRows i).toLoadRect.idx y)))

/-! ## What the body leaves in the output window's buffer -/

/-- The projected rows of the point, before the rescaling: the skeleton's second payload of the loaded rows,
    the space weights, the time weights and the bias. -/
abbrev lin (i : grid0.Coords) (x0 : Vec F S1x4104x512 .f32) (x1 : Vec F S1x256 .f32) (x2 : Vec F S1280x256 .bf16) (x3 : Vec F S1x256 .f32) :
    FVec F S1024x256 .f32 :=
  k0_pay2 (rows5 i x0) (View.ld x2 rW) (View.ld x1 rRow) (View.ld x3 rRow)

/-- The rows' cap factor before the minimum with one: the skeleton's third payload of the same loads. -/
abbrev capf (i : grid0.Coords) (x0 : Vec F S1x4104x512 .f32) (x1 : Vec F S1x256 .f32) (x2 : Vec F S1280x256 .bf16) (x3 : Vec F S1x256 .f32) :
    FVec F S1024x1 .f32 :=
  k0_pay3 (rows5 i x0) (View.ld x2 rW) (View.ld x1 rRow) (View.ld x3 rRow)

/-- The output window's staging buffer after the body, from the input windows' blocks at coordinates `i`: its one
    store, of the whole block. -/
def out0_4 (i : grid0.Coords) (x0 : Vec F S1x4104x512 .f32) (x1 : Vec F S1x256 .f32) (x2 : Vec F S1280x256 .bf16) (x3 : Vec F S1x256 .f32) :
    Vec F S1x1024x257 .f32 :=
  View.canon [⟨rO, k0_pay1 (lin i x0 x1 x2 x3) (capf i x0 x1 x2 x3)⟩]

/-- The one store is of the whole block, so it covers it. -/
theorem cover0_4 (p0 : Vec F S1x1024x257 .f32) (y : S1x1024x257.Idx) :
    ∃ pc ∈ ([⟨rO, p0⟩] : List (View.Piece (Elt F) S1x1024x257 .f32)), y ∈ pc.1.set :=
  View.cover_of_tiled [⟨rO, p0⟩] S1x1024x257.size (by rfl) y

/-! ## The body's triple -/

set_option maxHeartbeats 1000000 in
/-- The kernel body on whole staging memrefs, the four inputs' at read contents and the output's at anything, runs to
    the continuation holding the inputs' as they were and the output's at `out0_4` of the inputs'. The load of the
    folded rows goes through the batch block with its unit axis squeezed away, at the point's row offset; the
    load of the output buffer before the store reads a value nothing uses. -/
theorem sound_kernel (c : Dev nD) (E : Set ℕ) (i : grid0.Coords)
    (arg2 : Memref sig .tc .vmem S1x4104x512 .f32) (harg2 : arg2.IsWhole)
    (arg3 : Memref sig .tc .vmem S1x256 .f32) (harg3 : arg3.IsWhole)
    (arg4 : Memref sig .tc .vmem S1280x256 .bf16) (harg4 : arg4.IsWhole)
    (arg5 : Memref sig .tc .vmem S1x256 .f32) (harg5 : arg5.IsWhole)
    (arg6 : Memref sig .tc .vmem S1x1024x257 .f32) (harg6 : arg6.IsWhole)
    (x0 : Vec F S1x4104x512 .f32) (x1 : Vec F S1x256 .f32) (x2 : Vec F S1280x256 .bf16) (x3 : Vec F S1x256 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 i x0 x1 x2 x3)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  exact View.read_writes_eq_canon _ _ _ (cover0_4 _)

/-! ## The pipeline's proof data -/

/-- The proof data of the one pipeline on core `c`: the arrays as the region finds them; after the body at point `t`
    each input's buffer at its block and the output's at `out0_4` of the input blocks at the point's coordinates;
    the scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (grid0.coords t) (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.RowSpec.lean ====
/-
  What both programs compute, row by row, on the extended reals.

  A frame `n` of batch `bi` is the 5 × 256 patch of the space channels (channels 1 … 256) of the length-padded input
  at padded rows `2n, 2n + 1, …, 2n + 4`, laid out tap-major: entry `256·k + c` is row `2n + k`, channel `c + 1`; the
  padded rows `0, 1` and every row from `8194` on hold the padding value. From a patch `p`:
    · its time coordinate is `√(1 + Σ p²)` (`time`);
    · the projected row is, for each of the output channels 1 … 256, `time · W[o, 0] + Σ_f p_f · W[o, f + 1] + b[o]`
      (`linRow`: the 1281-term product of (time, p) with W's row `o`, its first term written apart);
    · the row is rescaled by `min 1 (1000 / max ‖s‖ 1e-8)` (`scale`), and the result row is the time coordinate of the
      rescaled row followed by the rescaled row (`outRow`).
  The float words are kept as patterns: `1.0`, `1e-8` (its f32 pattern), `1000.0`; sums start from nothing.
-/
import Idealize.ShloMosaic.PureOps.Ideal
import Idealize.ShloMosaic.Lib.ValueIdx

noncomputable section

namespace Cert.RowSpec

open Idealize.ShloMosaic Idealize.ShloMosaic.ValueIdx

/-- `1.0`. -/
abbrev w1 : EReal := Ideal.ofBits .f32 0x3F800000#32
/-- The f32 nearest `1e-8`. -/
abbrev wEps : EReal := Ideal.ofBits .f32 0x322BCC77#32
/-- `1000.0`. -/
abbrev wCap : EReal := Ideal.ofBits .f32 0x447A0000#32

/-- The time coordinate of a space row: `√(1 + Σ s²)`. -/
def time {n : Nat} (s : Fin n → EReal) : EReal := Ideal.sqrt (w1 + ∑ k : Fin n, s k * s k)

/-- The projected row of a patch `p`: per output channel, the time coordinate times the time weight, plus the patch
    against the space weights, plus the bias. -/
def linRow (p : Fin 1280 → EReal) (wt : Fin 256 → EReal) (ws : Fin 1280 → Fin 256 → EReal) (bs : Fin 256 → EReal) :
    Fin 256 → EReal :=
  fun o => time p * wt o + (∑ f : Fin 1280, p f * ws f o) + bs o

/-- The cap factor of a row: `min 1 (1000 / max ‖s‖ 1e-8)`. -/
def scale (s : Fin 256 → EReal) : EReal :=
  min w1 (Ideal.div wCap (max (Ideal.sqrt (∑ k : Fin 256, s k * s k)) wEps))

/-- The result row: the time coordinate of the rescaled row, then the rescaled row. -/
def outRow (s : Fin 256 → EReal) : Fin 257 → EReal :=
  fun o => if h : o.val = 0 then time (fun k => s k * scale s) else s ⟨o.val - 1, by omega⟩ * scale s

/-- The space channel `c + 1` of the length-padded input at padded row `r`: the input's row `r - 2` for
    `2 ≤ r < 8194`, the padding value `pv` elsewhere. -/
def xsp (x : (⟨3, ![16, 8192, 257]⟩ : Shape).Idx → EReal) (pv : EReal) (bi : Fin 16) (r : Nat) (c : Fin 256) : EReal :=
  if h : 2 ≤ r ∧ r < 8194 then x (ix3 bi ⟨r - 2, by omega⟩ ⟨c.val + 1, by omega⟩) else pv

/-- The patch of frame `n`: tap-major, entry `256·k + c` at padded row `2n + k`, channel `c + 1`. -/
def patch (x : (⟨3, ![16, 8192, 257]⟩ : Shape).Idx → EReal) (pv : EReal) (bi : Fin 16) (n : Fin 4096) : Fin 1280 → EReal :=
  fun f => xsp x pv bi (2 * n.val + f.val / 256) ⟨f.val % 256, Nat.mod_lt _ (by decide)⟩

/-- The padding value both programs pad with: the integer zero converted to a float. -/
abbrev padv : EReal := FloatOps.sitofp (F := Ideal) .f32 (0#32 : BitVec 32)

/-- The time weights: W's column 0 at output channel `o + 1`. -/
abbrev wtOf (W : (⟨2, ![257, 1281]⟩ : Shape).Idx → EReal) : Fin 256 → EReal :=
  fun o => W (ix2 ⟨o.val + 1, by omega⟩ ⟨0, by decide⟩)
/-- The space weights: W at output channel `o + 1`, feature `f + 1`. -/
abbrev wsOf (W : (⟨2, ![257, 1281]⟩ : Shape).Idx → EReal) : Fin 1280 → Fin 256 → EReal :=
  fun f o => W (ix2 ⟨o.val + 1, by omega⟩ ⟨f.val + 1, by omega⟩)
/-- The bias at output channel `o + 1`. -/
abbrev bsOf (b : (⟨1, ![257]⟩ : Shape).Idx → EReal) : Fin 256 → EReal :=
  fun o => b (ix1 ⟨o.val + 1, by omega⟩)

/-- The whole result, entry by entry: batch `j 0`, frame `j 1`, channel `j 2`. -/
def G (x : (⟨3, ![16, 8192, 257]⟩ : Shape).Idx → EReal) (W : (⟨2, ![257, 1281]⟩ : Shape).Idx → EReal)
    (b : (⟨1, ![257]⟩ : Shape).Idx → EReal) : (⟨3, ![16, 4096, 257]⟩ : Shape).Idx → EReal :=
  fun j => outRow (linRow (patch x padv (j 0) (j 1)) (wtOf W) (wsOf W) (bsOf b)) (j 2)

end Cert.RowSpec

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.KernelRows.lean ====
/-
  The kernel body's arithmetic at one entry, on the extended reals: the three payloads of the body, read at a row and a
  channel, are the row functions of the specification applied to the patch row cut out of the loaded folded rows.
-/
import proofs.«426489_j21199958573237_3_alg».proof.Proof.Gen.KernelIdeal.Skeleton
import proofs.«426489_j21199958573237_3_alg».proof.Proof.RowSpec
import proofs.«426489_j21199958573237_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Cert.RowSpec
open Idealize.ShloMosaic Idealize.ShloMosaic.TcCoe Idealize.ShloMosaic.ValueIdx

/-- The patch row of local frame `r` out of the 1032 × 512 loaded folded rows: entry `256·k + c` (tap `k`, channel
    `c`) is folded row `r + k / 2`, lane `256·(k mod 2) + c`; with `f = 256·k + c` that is row `r + f / 512`, lane
    `f mod 512`. -/
def prow (v5 : Vec Ideal S1032x512 .f32) (r : Fin 1024) : Fin 1280 → EReal :=
  fun f => v5 (ix2 ⟨r.val + f.val / 512, by have := r.isLt; have := f.isLt; omega⟩ ⟨f.val % 512, Nat.mod_lt _ (by decide)⟩)

section General
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index over row `i` with `k` put on the dropped last axis is `(i, k)`. -/
theorem lift_last {m n : ℕ} (h : (⟨2, ![m, n]⟩ : Shape).Reduces [1] ⟨1, ![m]⟩) (i : Fin m) (k : Fin n) :
    h.lift (ix1 i) k = ix2 i k := by
  funext c; apply Fin.ext
  match c with
  | ⟨0, _⟩ => rfl
  | ⟨1, _⟩ => rfl

/-- A lane sum kept as a column: the sum over the row's entries. -/
theorem laneSum_apply {φ : FTy} {m n : ℕ} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![m, 1]⟩) (i : Fin m) (u : Fin 1) :
    shapeCast ⟨2, ![m, 1]⟩ (multiReduction .add [1] ⟨1, ![m]⟩ x acc h hφ hacc) hc (ix2 i u) = ∑ k : Fin n, x (ix2 i k) := by
  refine (shapeCast_a_a1_apply _ hc i u).trans ?_
  refine (Ideal.multiReduction_add_single x acc h hφ hacc (ix1 i)).trans ?_
  exact Finset.sum_congr rfl fun k _ => congrArg x (lift_last h i k)

end General

section Concat
variable {α : Type}

/-- A column `[a, 1]` followed by `[a, b]` along axis 1 reads the column at column 0 … -/
theorem concat_col_zero {a b : ℕ} (x₁ : (⟨2, ![a, 1]⟩ : Shape).Idx → α) (x₂ : (⟨2, ![a, b]⟩ : Shape).Idx → α)
    (h : Shape.Concatenates [(⟨2, ![a, 1]⟩ : Shape), ⟨2, ![a, b]⟩] ⟨2, ![a, b + 1]⟩ 1) (r : Fin a) (o : Fin (b + 1)) (ho : o.val = 0) :
    concatenate ⟨2, ![a, b + 1]⟩ 1 [⟨⟨2, ![a, 1]⟩, x₁⟩, ⟨⟨2, ![a, b]⟩, x₂⟩] h (ix2 r o) = x₁ (ix2 r (0 : Fin 1)) := by
  refine concatenate_pair_apply_left (1 : Fin 2) x₁ x₂ h (ix2 r o) rfl (ix2 r (0 : Fin 1)) fun c => ?_
  match c with
  | ⟨0, _⟩ => rfl
  | ⟨1, _⟩ => exact ho.symm

/-- … and the second piece one column to the left elsewhere. -/
theorem concat_col_succ {a b : ℕ} (x₁ : (⟨2, ![a, 1]⟩ : Shape).Idx → α) (x₂ : (⟨2, ![a, b]⟩ : Shape).Idx → α)
    (h : Shape.Concatenates [(⟨2, ![a, 1]⟩ : Shape), ⟨2, ![a, b]⟩] ⟨2, ![a, b + 1]⟩ 1) (r : Fin a) (o : Fin (b + 1)) (ho : o.val ≠ 0) :
    concatenate ⟨2, ![a, b + 1]⟩ 1 [⟨⟨2, ![a, 1]⟩, x₁⟩, ⟨⟨2, ![a, b]⟩, x₂⟩] h (ix2 r o)
      = x₂ (ix2 r ⟨o.val - 1, by have := o.isLt; omega⟩) := by
  refine concatenate_pair_apply_right (1 : Fin 2) x₁ x₂ h (ix2 r o) rfl rfl (ix2 r ⟨o.val - 1, by have := o.isLt; omega⟩) (fun c hc => ?_) ?_
  · match c with
    | ⟨0, _⟩ => rfl
    | ⟨1, _⟩ => exact absurd (Fin.ext rfl) hc
  · show o.val - 1 + 1 = o.val
    omega

end Concat

/-- The patch rows: five windows of the loaded rows, at row offsets 0, 0, 1, 1, 2 and lane offsets 0, 256, 0, 256, 0,
    side by side. Entry `(r, 256·k + c)` is loaded row `r + k / 2`, lane `256·(k mod 2) + c`. -/
theorem patch_apply {α : Type} (v6 : S1032x512.Idx → α)
    (h0 : S1032x512.Slices ![0, 0] S1024x256) (h1 : S1032x512.Slices ![0, 256] S1024x256)
    (h2 : S1032x512.Slices ![1, 0] S1024x256) (h3 : S1032x512.Slices ![1, 256] S1024x256)
    (h4 : S1032x512.Slices ![2, 0] S1024x256)
    (hc : Shape.Concatenates [S1024x256, S1024x256, S1024x256, S1024x256, S1024x256] S1024x1280 1)
    (r : Fin 1024) (f : Fin 1280) :
    concatenate S1024x1280 1 [⟨S1024x256, extractStridedSlice S1024x256 ![0, 0] v6 h0⟩,
        ⟨S1024x256, extractStridedSlice S1024x256 ![0, 256] v6 h1⟩, ⟨S1024x256, extractStridedSlice S1024x256 ![1, 0] v6 h2⟩,
        ⟨S1024x256, extractStridedSlice S1024x256 ![1, 256] v6 h3⟩, ⟨S1024x256, extractStridedSlice S1024x256 ![2, 0] v6 h4⟩] hc
        (ix2 r f)
      = v6 (ix2 ⟨r.val + f.val / 512, by have := r.isLt; have := f.isLt; omega⟩ ⟨f.val % 512, Nat.mod_lt _ (by decide)⟩) := by
  have hr := r.isLt
  have hf := f.isLt
  let xs : List ((s : Shape) × (s.Idx → α)) := [⟨S1024x256, extractStridedSlice S1024x256 ![0, 0] v6 h0⟩,
        ⟨S1024x256, extractStridedSlice S1024x256 ![0, 256] v6 h1⟩, ⟨S1024x256, extractStridedSlice S1024x256 ![1, 0] v6 h2⟩,
        ⟨S1024x256, extractStridedSlice S1024x256 ![1, 256] v6 h3⟩, ⟨S1024x256, extractStridedSlice S1024x256 ![2, 0] v6 h4⟩]
  have hl : xs.length = 5 := rfl
  show concatenate S1024x1280 1 xs hc (ix2 r f) = _
  by_cases c1 : f.val < 256
  · refine (concatenate_apply_piece (t := S1024x1280) (1 : Fin 2) xs hc (ix2 r f) 0 (by omega) S1024x256 _ rfl rfl 0 rfl
      (ix2 r ⟨f.val, c1⟩) (fun b hb => ?_) ?_).trans ?_
    · match b with
      | ⟨0, _⟩ => rfl
      | ⟨1, _⟩ => exact absurd (Fin.ext rfl) hb
    · show 0 + f.val = f.val
      omega
    · refine extractStridedSlice_apply _ _ _ _ _ fun a => ?_
      match a with
      | ⟨0, _⟩ => show r.val + f.val / 512 = 0 + r.val; omega
      | ⟨1, _⟩ => show f.val % 512 = 0 + f.val; omega
  by_cases c2 : f.val < 512
  · refine (concatenate_apply_piece (t := S1024x1280) (1 : Fin 2) xs hc (ix2 r f) 1 (by omega) S1024x256 _ rfl rfl 256 rfl
      (ix2 r ⟨f.val - 256, by omega⟩) (fun b hb => ?_) ?_).trans ?_
    · match b with
      | ⟨0, _⟩ => rfl
      | ⟨1, _⟩ => exact absurd (Fin.ext rfl) hb
    · show 256 + (f.val - 256) = f.val
      omega
    · refine extractStridedSlice_apply _ _ _ _ _ fun a => ?_
      match a with
      | ⟨0, _⟩ => show r.val + f.val / 512 = 0 + r.val; omega
      | ⟨1, _⟩ => show f.val % 512 = 256 + (f.val - 256); omega
  by_cases c3 : f.val < 768
  · refine (concatenate_apply_piece (t := S1024x1280) (1 : Fin 2) xs hc (ix2 r f) 2 (by omega) S1024x256 _ rfl rfl 512 rfl
      (ix2 r ⟨f.val - 512, by omega⟩) (fun b hb => ?_) ?_).trans ?_
    · match b with
      | ⟨0, _⟩ => rfl
      | ⟨1, _⟩ => exact absurd (Fin.ext rfl) hb
    · show 512 + (f.val - 512) = f.val
      omega
    · refine extractStridedSlice_apply _ _ _ _ _ fun a => ?_
      match a with
      | ⟨0, _⟩ => show r.val + f.val / 512 = 1 + r.val; omega
      | ⟨1, _⟩ => show f.val % 512 = 0 + (f.val - 512); omega
  by_cases c4 : f.val < 1024
  · refine (concatenate_apply_piece (t := S1024x1280) (1 : Fin 2) xs hc (ix2 r f) 3 (by omega) S1024x256 _ rfl rfl 768 rfl
      (ix2 r ⟨f.val - 768, by omega⟩) (fun b hb => ?_) ?_).trans ?_
    · match b with
      | ⟨0, _⟩ => rfl
      | ⟨1, _⟩ => exact absurd (Fin.ext rfl) hb
    · show 768 + (f.val - 768) = f.val
      omega
    · refine extractStridedSlice_apply _ _ _ _ _ fun a => ?_
      match a with
      | ⟨0, _⟩ => show r.val + f.val / 512 = 1 + r.val; omega
      | ⟨1, _⟩ => show f.val % 512 = 256 + (f.val - 768); omega
  · refine (concatenate_apply_piece (t := S1024x1280) (1 : Fin 2) xs hc (ix2 r f) 4 (by omega) S1024x256 _ rfl rfl 1024 rfl
      (ix2 r ⟨f.val - 1024, by omega⟩) (fun b hb => ?_) ?_).trans ?_
    · match b with
      | ⟨0, _⟩ => rfl
      | ⟨1, _⟩ => exact absurd (Fin.ext rfl) hb
    · show 1024 + (f.val - 1024) = f.val
      omega
    · refine extractStridedSlice_apply _ _ _ _ _ fun a => ?_
      match a with
      | ⟨0, _⟩ => show r.val + f.val / 512 = 2 + r.val; omega
      | ⟨1, _⟩ => show f.val % 512 = 0 + (f.val - 1024); omega

/-- The stored block at an entry, over any projected rows `v32` and cap column `v40`: column 0 is the time coordinate
    of the rescaled row, column `o ≥ 1` the rescaled row's entry `o - 1`; the factor is `min 1 (cap)`. -/
theorem pay1_apply (v32 : FVec Ideal S1024x256 .f32) (v40 : FVec Ideal S1024x1 .f32) (r : Fin 1024) (o : Fin 257) :
    k0_pay1 (F := Ideal) v32 v40 (ix3 (0 : Fin 1) r o)
      = if h : o.val = 0 then
          Ideal.sqrt (w1 + ∑ k : Fin 256, (v32 (ix2 r k) * min w1 (v40 (ix2 r (0 : Fin 1))))
            * (v32 (ix2 r k) * min w1 (v40 (ix2 r (0 : Fin 1)))))
        else v32 (ix2 r ⟨o.val - 1, by have := o.isLt; omega⟩) * min w1 (v40 (ix2 r (0 : Fin 1))) := by
  unfold k0_pay1
  refine (shapeCast_ab_1ab_apply _ _ (0 : Fin 1) r o).trans ?_
  have h44 : ∀ k : Fin 256,
      mulf v32 (broadcastTo S1024x256 (minimumf (broadcast S1024x1 (Scalar.ofBits (F := Ideal) .f32 0x3F800000#32)) v40)
        broadcasts_S1024x1_S1024x256) (ix2 r k) = v32 (ix2 r k) * min w1 (v40 (ix2 r (0 : Fin 1))) := fun k =>
    congrArg (v32 (ix2 r k) * ·) (broadcastTo_a1_ab_apply _ _ r k)
  split
  · next ho =>
    refine (concat_col_zero _ _ _ r o ho).trans ?_
    refine congrArg (fun t => Ideal.sqrt (w1 + t)) ?_
    refine (laneSum_apply _ _ _ _ _ _ r (0 : Fin 1)).trans ?_
    exact Finset.sum_congr rfl fun k _ => congrArg₂ (· * ·) (h44 k) (h44 k)
  · next ho =>
    refine (concat_col_succ _ _ _ r o ho).trans ?_
    exact h44 _

/-- The projected rows at an entry: the specification's projected row of the patch row. -/
theorem pay2_apply (v5 : Vec Ideal S1032x512 .f32) (v20 : Vec Ideal S1280x256 .bf16) (v23 : Vec Ideal S1x256 .f32)
    (v29 : Vec Ideal S1x256 .f32) (r : Fin 1024) (o' : Fin 256) :
    k0_pay2 (F := Ideal) v5 v20 v23 v29 (ix2 r o')
      = linRow (prow v5 r) (fun o' => v23 (ix2 (0 : Fin 1) o')) (fun f o' => v20 (ix2 f o'))
          (fun o' => v29 (ix2 (0 : Fin 1) o')) o' := by
  -- the patch rows at an entry
  have hp : ∀ f : Fin 1280, _ = prow v5 r f := fun f =>
    (patch_apply (shapeCast S1032x512 v5 shapeCasts_S1032x512_S1032x512) slices_S1032x512_o0_0_S1024x256
      slices_S1032x512_o0_256_S1024x256 slices_S1032x512_o1_0_S1024x256 slices_S1032x512_o1_256_S1024x256
      slices_S1032x512_o2_0_S1024x256 concatenates_S1024x256_S1024x256_S1024x256_S1024x256_S1024x256_S1024x1280_d1 r f).trans
      (congrFun (shapeCast_self v5 _) _)
  unfold k0_pay2 linRow time
  refine congrArg₂ (· + ·) (congrArg₂ (· + ·) (congrArg₂ (· * ·) ?_ ?_) ?_) ?_
  · refine (broadcastTo_a1_ab_apply _ _ r o').trans ?_
    refine congrArg (fun t => Ideal.sqrt (w1 + t)) ?_
    refine (laneSum_apply _ _ _ _ _ _ r (0 : Fin 1)).trans ?_
    exact Finset.sum_congr rfl fun k _ => congrArg₂ (· * ·) (hp k) (hp k)
  · exact (broadcastTo_1b_ab_apply _ _ r o').trans (congrFun (shapeCast_self v23 _) _)
  · refine (PlainDot.matmul_zero_apply dot_S1024x1280_S1280x256_S1024x256_1_0_0_1_n_n ⟨rfl, rfl, rfl, rfl, rfl, rfl⟩ none _ _ r o').trans ?_
    exact Finset.sum_congr rfl fun k _ => congrArg₂ (· * ·) (hp k) (congrFun (shapeCast_self v20 _) _)
  · exact (broadcastTo_1b_ab_apply _ _ r o').trans (congrFun (shapeCast_self v29 _) _)

/-- The cap column at a row: `1000 / max ‖s‖ 1e-8` of the projected row `s`. -/
theorem pay3_apply (v5 : Vec Ideal S1032x512 .f32) (v20 : Vec Ideal S1280x256 .bf16) (v23 : Vec Ideal S1x256 .f32)
    (v29 : Vec Ideal S1x256 .f32) (r : Fin 1024) :
    k0_pay3 (F := Ideal) v5 v20 v23 v29 (ix2 r (0 : Fin 1))
      = Ideal.div wCap (max (Ideal.sqrt (∑ k : Fin 256, k0_pay2 (F := Ideal) v5 v20 v23 v29 (ix2 r k)
          * k0_pay2 (F := Ideal) v5 v20 v23 v29 (ix2 r k))) wEps) := by
  unfold k0_pay3
  refine congrArg (fun t => Ideal.div wCap (max (Ideal.sqrt t) wEps)) ?_
  exact laneSum_apply _ _ _ _ _ _ r (0 : Fin 1)

/-- THE BODY AT AN ENTRY: the stored block's entry (0, r, o) is the specification's result row of the projected row of
    the patch row `r`, against the loaded space weights `v20`, time weights `v23` and bias `v29`. -/
theorem out_apply (v5 : Vec Ideal S1032x512 .f32) (v20 : Vec Ideal S1280x256 .bf16) (v23 : Vec Ideal S1x256 .f32)
    (v29 : Vec Ideal S1x256 .f32) (r : Fin 1024) (o : Fin 257) :
    k0_pay1 (F := Ideal) (k0_pay2 v5 v20 v23 v29) (k0_pay3 v5 v20 v23 v29) (ix3 (0 : Fin 1) r o)
      = outRow (linRow (prow v5 r) (fun o' => v23 (ix2 (0 : Fin 1) o')) (fun f o' => v20 (ix2 f o'))
          (fun o' => v29 (ix2 (0 : Fin 1) o'))) o := by
  refine (pay1_apply _ _ r o).trans ?_
  have h2 : ∀ k : Fin 256, k0_pay2 (F := Ideal) v5 v20 v23 v29 (ix2 r k)
      = linRow (prow v5 r) (fun o' => v23 (ix2 (0 : Fin 1) o')) (fun f o' => v20 (ix2 f o'))
          (fun o' => v29 (ix2 (0 : Fin 1) o')) k := fun k => pay2_apply v5 v20 v23 v29 r k
  have h3 : min w1 (k0_pay3 (F := Ideal) v5 v20 v23 v29 (ix2 r (0 : Fin 1)))
      = scale (linRow (prow v5 r) (fun o' => v23 (ix2 (0 : Fin 1) o')) (fun f o' => v20 (ix2 f o'))
          (fun o' => v29 (ix2 (0 : Fin 1) o'))) := by
    rw [pay3_apply]
    unfold scale
    simp only [h2]
  unfold outRow time
  simp only [h2, h3]

end Cert.KernelIdeal.Rows

end
-- ==== Proof.LibPad.lean ====
/-
  A zero-interior pad along the middle axis of a rank-3 array, read at an index.

  Padding an A × B × C array with `p` rows in front and `q` rows behind on its middle axis (nothing on the other
  two, no interior padding) gives an A × (B + p + q) × C array whose entry (a, r, c) is the operand's entry
  (a, r − p, c) when `p ≤ r < p + B`, and the padding value otherwise.
-/
import Idealize.ShloMosaic.PureOps.ShapeOps
import Idealize.ShloMosaic.Lib.ValueIdx

noncomputable section

namespace PadMid

open Idealize.ShloMosaic Idealize.ShloMosaic.ValueIdx

variable {α : Type} {A B C T p q : Nat}

/-- The pad read at `(a, r, c)`. -/
theorem pad_apply (x : (⟨3, ![A, B, C]⟩ : Shape).Idx → α) {u : Shape} (v : u.Idx → α)
    (h : (⟨3, ![A, B, C]⟩ : Shape).Pads ![0, p, 0] ![0, q, 0] ![0, 0, 0] ⟨3, ![A, T, C]⟩) (hu : 0 < u.numel)
    (a : Fin A) (r : Fin T) (c : Fin C) :
    pad (s := ⟨3, ![A, B, C]⟩) ⟨3, ![A, T, C]⟩ ![0, p, 0] ![0, q, 0] ![0, 0, 0] x v h hu (ix3 a r c)
      = if hr : p ≤ r.val ∧ r.val - p < B then x (ix3 a ⟨r.val - p, hr.2⟩ c) else v (Shape.Idx.first hu) := by
  unfold pad
  by_cases hr : p ≤ r.val ∧ r.val - p < B
  · rw [dif_pos hr, dif_pos]
    · congr 1
      funext d
      apply Fin.ext
      match d with
      | ⟨0, _⟩ => show (a.val - 0) / (0 + 1) = a.val; simp
      | ⟨1, _⟩ => show (r.val - p) / (0 + 1) = r.val - p; simp
      | ⟨2, _⟩ => show (c.val - 0) / (0 + 1) = c.val; simp
    · intro d
      match d with
      | ⟨0, _⟩ => exact ⟨Nat.zero_le _, by show (a.val - 0) % (0 + 1) = 0; exact Nat.mod_one _, by show (a.val - 0) / (0 + 1) < A; simp⟩
      | ⟨1, _⟩ => exact ⟨hr.1, by show (r.val - p) % (0 + 1) = 0; exact Nat.mod_one _, by show (r.val - p) / (0 + 1) < B; simpa using hr.2⟩
      | ⟨2, _⟩ => exact ⟨Nat.zero_le _, by show (c.val - 0) % (0 + 1) = 0; exact Nat.mod_one _, by show (c.val - 0) / (0 + 1) < C; simp⟩
  · rw [dif_neg hr, dif_neg]
    intro hall
    have h1 := hall ⟨1, by show 1 < 3; omega⟩
    exact hr ⟨h1.1, by have := h1.2.2; simpa using this⟩

end PadMid

end
-- ==== Proof.KernelHost.lean ====
/-
  The arrays the kernel's pallas_call is launched on, read at an entry in terms of @main's arguments: the folded
  space channels of the length-padded input, the time weights, the space weights and the bias.
-/
import proofs.«426489_j21199958573237_3_alg».proof.Proof.Gen.KernelIdeal.Frame
import proofs.«426489_j21199958573237_3_alg».proof.Proof.RowSpec
import proofs.«426489_j21199958573237_3_alg».proof.Proof.LibPad
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostRead

open Cert.KernelIdeal Cert.KernelIdeal.Gen Cert.RowSpec
open Idealize.ShloMosaic Idealize.ShloMosaic.TcCoe Idealize.ShloMosaic.ValueIdx Idealize.SL.Sem

variable (m : (ℓ : Loc nD τ sig) → Buf (Elt Ideal) ℓ)

/-- @main's three arguments on core `c`, as launched. -/
abbrev argX (c : Dev nD) : S16x8192x257.Idx → EReal := m ((c : Thread nD τ).loc main_arg0)
abbrev argW (c : Dev nD) : S257x1281.Idx → EReal := m ((c : Thread nD τ).loc main_arg1)
abbrev argB (c : Dev nD) : S257.Idx → EReal := m ((c : Thread nD τ).loc main_arg2)

/-- The folded rows: batch `bi`, folded row `r`, lane `l` is padded row `2r + l / 256`, space channel `l mod 256`. -/
theorem V_v2_apply (c : Dev nD) (bi : Fin 16) (r : Fin 4104) (l : Fin 512) :
    (V m c main_v2 : S16x4104x512.Idx → EReal) (ix3 bi r l)
      = xsp (argX m c) padv bi (2 * r.val + l.val / 256) ⟨l.val % 256, Nat.mod_lt _ (by decide)⟩ := by
  have hl : l.val < 512 := l.isLt
  have hr : r.val < 4104 := r.isLt
  have hR : 2 * r.val + l.val / 256 < 8208 := by omega
  have hc : l.val % 256 < 256 := Nat.mod_lt _ (by decide)
  dsimp only [Gen.V]
  simp only [Gen.hostOps0, Gen.hostOps0_1, Gen.hostOps0_2, List.flatten_cons, List.flatten_nil, List.append_nil, List.cons_append, List.nil_append]
  open StableHlo in after_results
  show shapeCast S16x4104x512
      (extractStridedSlice S16x8208x256 ![0, 0, 1]
        (pad S16x8208x257 ![0, 2, 0] ![0, 14, 0] ![0, 0, 0] (argX m c) (sitofp (F := Ideal) .f32 (constantI S_ 32 0#32))
          pads_S16x8192x257_S16x8208x257_000_2140_000 h_S_)
        slices_S16x8208x257_S16x8208x256_0_0_1)
      shapeCasts_S16x8208x256_S16x4104x512 (ix3 bi r l) = _
  -- the fold: row-major position ((bi · 4104 + r) · 512 + l) is ((bi · 8208 + (2r + l / 256)) · 256 + l mod 256)
  refine (shapeCast_apply _ _ _ (ix3 bi (⟨2 * r.val + l.val / 256, hR⟩ : Fin 8208) (⟨l.val % 256, hc⟩ : Fin 256)) (by
    rw [Shape.rowMajor_val_three, Shape.rowMajor_val_three]
    show (bi.val * 8208 + (2 * r.val + l.val / 256)) * 256 + l.val % 256 = (bi.val * 4104 + r.val) * 512 + l.val
    omega)).trans ?_
  -- the space channels: channel `l mod 256` of the slice is channel `l mod 256 + 1` of the padded array
  refine (extractStridedSlice_apply _ _ _ _
    (ix3 bi (⟨2 * r.val + l.val / 256, hR⟩ : Fin 8208) (⟨l.val % 256 + 1, by omega⟩ : Fin 257)) (fun a => match a with
      | ⟨0, _⟩ => by show bi.val = 0 + bi.val; omega
      | ⟨1, _⟩ => by show 2 * r.val + l.val / 256 = 0 + (2 * r.val + l.val / 256); omega
      | ⟨2, _⟩ => by show l.val % 256 + 1 = 1 + l.val % 256; omega)).trans ?_
  -- the pad on the length axis
  refine (PadMid.pad_apply _ _ _ _ bi _ _).trans ?_
  unfold xsp
  by_cases h : 2 ≤ 2 * r.val + l.val / 256 ∧ 2 * r.val + l.val / 256 < 8194
  · rw [dif_pos h, dif_pos (show 2 ≤ 2 * r.val + l.val / 256 ∧ 2 * r.val + l.val / 256 - 2 < 8192 from ⟨h.1, by omega⟩)]
  · rw [dif_neg h, dif_neg (show ¬ (2 ≤ 2 * r.val + l.val / 256 ∧ 2 * r.val + l.val / 256 - 2 < 8192) from
      fun h' => h ⟨h'.1, by omega⟩)]
    rfl

/-- The time weights: W's column 0 at output channel `o + 1`. -/
theorem V_v4_apply (c : Dev nD) (o : Fin 256) :
    (V m c main_v4 : S1x256.Idx → EReal) (ix2 (0 : Fin 1) o) = wtOf (argW m c) o := by
  dsimp only [Gen.V]
  simp only [Gen.hostOps0, Gen.hostOps0_1, Gen.hostOps0_2, List.flatten_cons, List.flatten_nil, List.append_nil, List.cons_append, List.nil_append]
  open StableHlo in after_results
  show extractStridedSlice S1x256 ![0, 1]
      (transpose S1281x257 [1, 0] (argW m c) transposes_S257x1281_S1281x257_1_0) slices_S1281x257_S1x256_0_1 (ix2 (0 : Fin 1) o)
    = argW m c (ix2 ⟨o.val + 1, by omega⟩ ⟨0, by decide⟩)
  -- row 0, column `o` of the slice is row 0, column `o + 1` of W transposed
  refine (extractStridedSlice_apply _ _ _ _ (ix2 (⟨0, by decide⟩ : Fin 1281) (⟨o.val + 1, by omega⟩ : Fin 257))
    (fun a => match a with
      | ⟨0, _⟩ => by show 0 = 0 + 0; rfl
      | ⟨1, _⟩ => by show o.val + 1 = 1 + o.val; omega)).trans ?_
  exact transpose_apply _ _ _ _ _ (fun b => match b with | ⟨0, _⟩ => rfl | ⟨1, _⟩ => rfl)

/-- The space weights (the change of float format is the identity on the extended reals). -/
theorem V_v6_apply (c : Dev nD) (f : Fin 1280) (o : Fin 256) :
    (V m c main_v6 : S1280x256.Idx → EReal) (ix2 f o) = wsOf (argW m c) f o := by
  dsimp only [Gen.V]
  simp only [Gen.hostOps0, Gen.hostOps0_1, Gen.hostOps0_2, List.flatten_cons, List.flatten_nil, List.append_nil, List.cons_append, List.nil_append]
  open StableHlo in after_results
  show extractStridedSlice S1280x256 ![1, 1]
      (transpose S1281x257 [1, 0] (argW m c) transposes_S257x1281_S1281x257_1_0) slices_S1281x257_S1280x256_1_1 (ix2 f o)
    = argW m c (ix2 ⟨o.val + 1, by omega⟩ ⟨f.val + 1, by omega⟩)
  -- row `f`, column `o` of the slice is row `f + 1`, column `o + 1` of W transposed
  refine (extractStridedSlice_apply _ _ _ _ (ix2 (⟨f.val + 1, by omega⟩ : Fin 1281) (⟨o.val + 1, by omega⟩ : Fin 257))
    (fun a => match a with
      | ⟨0, _⟩ => by show f.val + 1 = 1 + f.val; omega
      | ⟨1, _⟩ => by show o.val + 1 = 1 + o.val; omega)).trans ?_
  exact transpose_apply _ _ _ _ _ (fun b => match b with | ⟨0, _⟩ => rfl | ⟨1, _⟩ => rfl)

/-- The bias at output channel `o + 1`. -/
theorem V_v8_apply (c : Dev nD) (o : Fin 256) :
    (V m c main_v8 : S1x256.Idx → EReal) (ix2 (0 : Fin 1) o) = bsOf (argB m c) o := by
  dsimp only [Gen.V]
  simp only [Gen.hostOps0, Gen.hostOps0_1, Gen.hostOps0_2, List.flatten_cons, List.flatten_nil, List.append_nil, List.cons_append, List.nil_append]
  open StableHlo in after_results
  show shapeCast S1x256 (extractStridedSlice S256 ![1] (argB m c) slices_S257_S256_1) shapeCasts_S256_S1x256 (ix2 (0 : Fin 1) o)
    = argB m c (ix1 ⟨o.val + 1, by omega⟩)
  -- the added unit axis: position `o` on both sides
  refine (shapeCast_apply _ _ _ (ix1 o) (by
    rw [Shape.rowMajor_val_one, Shape.rowMajor_val_two]
    show o.val = 0 * 256 + o.val
    omega)).trans ?_
  exact extractStridedSlice_apply _ _ _ _ _ (fun a => match a with
    | ⟨0, _⟩ => by show o.val + 1 = 1 + o.val; omega)

end Cert.KernelIdeal.HostRead

end
-- ==== Proof.KernelFinal.lean ====
/-
  The kernel's result array after the run is the specification `G` of @main's arguments.

  Point `t` of the 16 × 4 grid is batch `t / 4`, tile `t mod 4`. It stages batch `t / 4`'s whole 4104 × 512 folded block and
  the three weight arrays whole, and writes back the 1 × 1024 × 257 block at (t / 4, t mod 4, 0). Local frame `r` of the tile
  is frame `n = 1024·(t mod 4) + r` of the batch; its patch row, cut out of the 1032 folded rows loaded from folded row
  `1024·(t mod 4)`, is folded row `n + f / 512`, lane `f mod 512`, that is padded row `2n + f / 256`, space channel
  `f mod 256`: the specification's patch. So what point `t` writes back is block `t` of `G`, the blocks cover the array,
  and the array ends at `G`.
-/
import proofs.«426489_j21199958573237_3_alg».proof.Proof.KernelIdealBody
import proofs.«426489_j21199958573237_3_alg».proof.Proof.KernelRows
import proofs.«426489_j21199958573237_3_alg».proof.Proof.KernelHost
import proofs.«426489_j21199958573237_3_alg».proof.Proof.RowSpec
import Idealize.ShloMosaic.Lib.ValueIdx
import Idealize.ShloMosaic.Lib.ValueLayout
import Idealize.ShloMosaic.Lib.Pipeline.Value

set_option maxRecDepth 16384

noncomputable section

namespace Cert.KernelIdeal.Final

open Cert.KernelIdeal Cert.KernelIdeal.Gen Cert.KernelIdeal.Body Cert.KernelIdeal.Rows Cert.KernelIdeal.HostRead Cert.RowSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The schedule, decided over the 64 points -/

/-- Every window's block index at point `t`, the point's tile coordinate, and the row offset the body loads from. -/
theorem idx_facts : ∀ t : Fin cfg0.N,
    win0_4.index t (0 : Fin 3) = t.val / 4 ∧ win0_4.index t (1 : Fin 3) = t.val % 4 ∧ win0_4.index t (2 : Fin 3) = 0
    ∧ win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ k0_off1 (grid0.coords t) (0 : Fin 2) = 1024 * (t.val % 4) ∧ k0_off1 (grid0.coords t) (1 : Fin 2) = 0 :=
  (by decide +kernel : ∀ t : Fin grid0.N, _)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The loaded folded rows at an entry -/

/-- The folded rows a point loads, at local row `r'` and lane `l`: the batch's block at folded row `a + r'`, where `a`
    is the point's row offset. -/
theorem rows5_apply (i : grid0.Coords) (x0 : Vec Ideal S1x4104x512 .f32) (a : Nat) (h0 : k0_off1 i (0 : Fin 2) = a)
    (h1 : k0_off1 i (1 : Fin 2) = 0) (r' : Fin 1032) (l : Fin 512) (hb : a + r'.val < 4104) :
    rows5 i x0 (ix2 r' l) = x0 (ix3 (0 : Fin 1) ⟨a + r'.val, hb⟩ l) := by
  unfold rows5
  have e1 : (rRows i).toLoadRect.idx (ix2 r' l) = (ix2 (⟨a + r'.val, hb⟩ : Fin 4104) l : S4104x512.Idx) :=
    funext fun d => Fin.ext (by
      match d with
      | ⟨0, _⟩ => show k0_off1 i (0 : Fin 2) + 1 * r'.val = a + r'.val; omega
      | ⟨1, _⟩ => show k0_off1 i (1 : Fin 2) + 1 * l.val = l.val; omega)
  rw [e1, reshapeEquiv_ix2_1ab]
  congr 1
  funext d
  apply Fin.ext
  match d with
  | ⟨0, _⟩ => rfl
  | ⟨1, _⟩ => show 0 + 1 * (a + r'.val) = a + r'.val; omega
  | ⟨2, _⟩ => show 0 + 1 * l.val = l.val; omega

/-- The projected row depends on its four arguments only through their values. -/
theorem linRow_congr {p p' : Fin 1280 → EReal} {wt wt' : Fin 256 → EReal} {ws ws' : Fin 1280 → Fin 256 → EReal}
    {bs bs' : Fin 256 → EReal} (hp : p = p') (h1 : wt = wt') (h2 : ws = ws') (h3 : bs = bs') :
    linRow p wt ws bs = linRow p' wt' ws' bs' := by
  subst hp h1 h2 h3; rfl

/-! ## The input blocks at an entry -/

/-- Where the folded-rows window's block of point `t` sits in the folded array: batch `t / 4`, the block whole. -/
theorem emb0 (t : Fin cfg0.N) (R : Fin 4104) (L : Fin 512) (hb : t.val / 4 < 16) :
    ((cfg0.win 0).blk t).view.emb (ix3 (0 : Fin 1) R L) = (ix3 (⟨t.val / 4, hb⟩ : Fin 16) R L : S16x4104x512.Idx) := by
  obtain ⟨-, -, -, e0, e1, e2, -⟩ := idx_facts t
  funext a
  apply Fin.ext
  match a with
  | ⟨0, _⟩ => show win0_0.index t (0 : Fin 3) * 1 + 1 * 0 = t.val / 4; omega
  | ⟨1, _⟩ => show win0_0.index t (1 : Fin 3) * 4104 + 1 * R.val = R.val; omega
  | ⟨2, _⟩ => show win0_0.index t (2 : Fin 3) * 512 + 1 * L.val = L.val; omega

/-- The three weight windows' blocks are their arrays whole, at every point. -/
theorem emb1 (t : Fin cfg0.N) (o : Fin 256) :
    ((cfg0.win 1).blk t).view.emb (ix2 (0 : Fin 1) o) = (ix2 (0 : Fin 1) o : S1x256.Idx) := by
  obtain ⟨-, -, -, -, -, -, e0, e1, -⟩ := idx_facts t
  funext a
  apply Fin.ext
  match a with
  | ⟨0, _⟩ => show win0_1.index t (0 : Fin 2) * 1 + 1 * 0 = 0; omega
  | ⟨1, _⟩ => show win0_1.index t (1 : Fin 2) * 256 + 1 * o.val = o.val; omega
theorem emb2 (t : Fin cfg0.N) (f : Fin 1280) (o : Fin 256) :
    ((cfg0.win 2).blk t).view.emb (ix2 f o) = (ix2 f o : S1280x256.Idx) := by
  obtain ⟨-, -, -, -, -, -, -, -, e0, e1, -⟩ := idx_facts t
  funext a
  apply Fin.ext
  match a with
  | ⟨0, _⟩ => show win0_2.index t (0 : Fin 2) * 1280 + 1 * f.val = f.val; omega
  | ⟨1, _⟩ => show win0_2.index t (1 : Fin 2) * 256 + 1 * o.val = o.val; omega
theorem emb3 (t : Fin cfg0.N) (o : Fin 256) :
    ((cfg0.win 3).blk t).view.emb (ix2 (0 : Fin 1) o) = (ix2 (0 : Fin 1) o : S1x256.Idx) := by
  obtain ⟨-, -, -, -, -, -, -, -, -, -, e0, e1, -⟩ := idx_facts t
  funext a
  apply Fin.ext
  match a with
  | ⟨0, _⟩ => show win0_3.index t (0 : Fin 2) * 1 + 1 * 0 = 0; omega
  | ⟨1, _⟩ => show win0_3.index t (1 : Fin 2) * 256 + 1 * o.val = o.val; omega

/-- A block read of ANY array through each input window, at an entry: the array at the block's placement of the entry. -/
theorem read0_apply (A : S16x4104x512.Idx → EReal) (t : Fin cfg0.N) (R : Fin 4104) (L : Fin 512) (hb : t.val / 4 < 16) :
    ((cfg0.win 0).blk t).view.read (Elt Ideal) A (ix3 (0 : Fin 1) R L) = A (ix3 (⟨t.val / 4, hb⟩ : Fin 16) R L) := by
  show A (((cfg0.win 0).blk t).view.emb (ix3 (0 : Fin 1) R L)) = _
  rw [emb0 t R L hb]
theorem read1_apply (A : S1x256.Idx → EReal) (t : Fin cfg0.N) (o : Fin 256) :
    ((cfg0.win 1).blk t).view.read (Elt Ideal) A (ix2 (0 : Fin 1) o) = A (ix2 (0 : Fin 1) o) := by
  show A (((cfg0.win 1).blk t).view.emb (ix2 (0 : Fin 1) o)) = _
  rw [emb1 t o]
theorem read2_apply (A : S1280x256.Idx → EReal) (t : Fin cfg0.N) (f : Fin 1280) (o : Fin 256) :
    ((cfg0.win 2).blk t).view.read (Elt Ideal) A (ix2 f o) = A (ix2 f o) := by
  show A (((cfg0.win 2).blk t).view.emb (ix2 f o)) = _
  rw [emb2 t f o]
theorem read3_apply (A : S1x256.Idx → EReal) (t : Fin cfg0.N) (o : Fin 256) :
    ((cfg0.win 3).blk t).view.read (Elt Ideal) A (ix2 (0 : Fin 1) o) = A (ix2 (0 : Fin 1) o) := by
  show A (((cfg0.win 3).blk t).view.emb (ix2 (0 : Fin 1) o)) = _
  rw [emb3 t o]

/-- The folded-rows block of point `t` is batch `t / 4` of the folded array. -/
theorem iblk0_apply (c : Dev nD) (t : Fin cfg0.N) (R : Fin 4104) (L : Fin 512) (hb : t.val / 4 < 16) :
    iblk m c 0 t (ix3 (0 : Fin 1) R L) = V m c (Pipeline.arrRef spec0 0) (ix3 (⟨t.val / 4, hb⟩ : Fin 16) R L) :=
  read0_apply (V m c (Pipeline.arrRef spec0 0)) t R L hb
/-- The time-weights block of any point is the whole array. -/
theorem iblk1_apply (c : Dev nD) (t : Fin cfg0.N) (o : Fin 256) :
    iblk m c 1 t (ix2 (0 : Fin 1) o) = V m c (Pipeline.arrRef spec0 1) (ix2 (0 : Fin 1) o) :=
  read1_apply (V m c (Pipeline.arrRef spec0 1)) t o
/-- The space-weights block of any point is the whole array. -/
theorem iblk2_apply (c : Dev nD) (t : Fin cfg0.N) (f : Fin 1280) (o : Fin 256) :
    iblk m c 2 t (ix2 f o) = V m c (Pipeline.arrRef spec0 2) (ix2 f o) :=
  read2_apply (V m c (Pipeline.arrRef spec0 2)) t f o
/-- The bias block of any point is the whole array. -/
theorem iblk3_apply (c : Dev nD) (t : Fin cfg0.N) (o : Fin 256) :
    iblk m c 3 t (ix2 (0 : Fin 1) o) = V m c (Pipeline.arrRef spec0 3) (ix2 (0 : Fin 1) o) :=
  read3_apply (V m c (Pipeline.arrRef spec0 3)) t o

/-! ## What a point writes back -/

/-- The patch row of local frame `r` at point `t` is the specification's patch of frame `1024·(t mod 4) + r` of batch
    `t / 4`: folded row `n + f / 512`, lane `f mod 512` is padded row `2n + f / 256`, channel `f mod 256`. -/
theorem prow_eq (c : Dev nD) (t : Fin cfg0.N) (r : Fin 1024) (hb : t.val / 4 < 16) (hn : 1024 * (t.val % 4) + r.val < 4096) :
    prow (rows5 (grid0.coords t) (iblk m c 0 t)) r
      = patch (argX m c) padv (⟨t.val / 4, hb⟩ : Fin 16) (⟨1024 * (t.val % 4) + r.val, hn⟩ : Fin 4096) := by
  obtain ⟨-, -, -, -, -, -, -, -, -, -, -, -, e12, e13⟩ := idx_facts t
  funext f
  have hf : f.val < 1280 := f.isLt
  have hr : r.val < 1024 := r.isLt
  unfold prow patch
  refine (rows5_apply (grid0.coords t) (iblk m c 0 t) (1024 * (t.val % 4)) e12 e13
    (⟨r.val + f.val / 512, by omega⟩ : Fin 1032) (⟨f.val % 512, Nat.mod_lt _ (by decide)⟩ : Fin 512) (by show 1024 * (t.val % 4) + (r.val + f.val / 512) < 4104; omega)).trans ?_
  refine (iblk0_apply m c t _ _ hb).trans ?_
  refine (V_v2_apply m c _ _ _).trans ?_
  show xsp (argX m c) padv _ (2 * (1024 * (t.val % 4) + (r.val + f.val / 512)) + f.val % 512 / 256) ⟨f.val % 512 % 256, _⟩
    = xsp (argX m c) padv _ (2 * (1024 * (t.val % 4) + r.val) + f.val / 256) ⟨f.val % 256, _⟩
  have ea : 2 * (1024 * (t.val % 4) + (r.val + f.val / 512)) + f.val % 512 / 256 = 2 * (1024 * (t.val % 4) + r.val) + f.val / 256 := by omega
  have eb : f.val % 512 % 256 = f.val % 256 := by omega
  simp only [ea, eb]

/-- THE STORED BLOCK AT AN ENTRY, over any input blocks: the specification's result row of the projected row of the
    patch row cut out of the loaded folded rows, against the three weight blocks. -/
theorem out0_4_apply (i : grid0.Coords) (x0 : Vec Ideal S1x4104x512 .f32) (x1 : Vec Ideal S1x256 .f32)
    (x2 : Vec Ideal S1280x256 .bf16) (x3 : Vec Ideal S1x256 .f32) (r : Fin 1024) (o : Fin 257) :
    out0_4 i x0 x1 x2 x3 (ix3 (0 : Fin 1) r o)
      = outRow (linRow (prow (rows5 i x0) r) (fun o' => x1 (ix2 (0 : Fin 1) o')) (fun f o' => x2 (ix2 f o'))
          (fun o' => x3 (ix2 (0 : Fin 1) o'))) o := by
  unfold out0_4
  rw [View.canon_unit_zero hz3]
  refine (out_apply (rows5 i x0) (View.ld x2 rW) (View.ld x1 rRow) (View.ld x3 rRow) r o).trans ?_
  rw [View.ld_unit_zero (S := S1280x256) hz2 inb_S1280x256_S1280x256_0_0 x2,
    View.ld_unit_zero (S := S1x256) hz2 inb_S1x256_S1x256_0_0 x1,
    View.ld_unit_zero (S := S1x256) hz2 inb_S1x256_S1x256_0_0 x3]

/-- WHAT POINT `t` WRITES BACK is block `t` of `G` of @main's arguments. -/
theorem flushed4_eq (c : Dev nD) (t : Fin cfg0.N) :
    (dats m 0 c).flushed 4 t = ((cfg0.win 4).blk t).view.read (Elt Ideal) (G (argX m c) (argW m c) (argB m c)) := by
  show (cfg0.win 4).cut (grid0.coords t) ((dats m 0 c).after 4 t) = _
  rw [after0_4]
  obtain ⟨e0, e1, e2, -⟩ := idx_facts t
  have ht : t.val < 64 := t.isLt
  have hb : t.val / 4 < 16 := by omega
  funext j
  have hj0 : (j 0).val < 1 := (j 0).isLt
  obtain ⟨r, o, rfl⟩ : ∃ (r : Fin 1024) (o : Fin 257), j = ix3 (0 : Fin 1) r o :=
    ⟨j 1, j 2, funext fun a => by
      match a with
      | ⟨0, _⟩ => exact Fin.ext (by show (j 0).val = 0; omega)
      | ⟨1, _⟩ => rfl
      | ⟨2, _⟩ => rfl⟩
  have hr : r.val < 1024 := r.isLt
  have hn : 1024 * (t.val % 4) + r.val < 4096 := by omega
  have hidx : ((cfg0.win 4).blk t).view.emb (ix3 (0 : Fin 1) r o)
      = (ix3 (⟨t.val / 4, hb⟩ : Fin 16) (⟨1024 * (t.val % 4) + r.val, hn⟩ : Fin 4096) o : S16x4096x257.Idx) := by
    funext a
    apply Fin.ext
    match a with
    | ⟨0, _⟩ => show win0_4.index t (0 : Fin 3) * 1 + 1 * 0 = t.val / 4; omega
    | ⟨1, _⟩ => show win0_4.index t (1 : Fin 3) * 1024 + 1 * r.val = 1024 * (t.val % 4) + r.val; omega
    | ⟨2, _⟩ => show win0_4.index t (2 : Fin 3) * 257 + 1 * o.val = o.val; omega
  have h1 : (fun o' : Fin 256 => iblk m c 1 t (ix2 (0 : Fin 1) o')) = wtOf (argW m c) :=
    funext fun o' => (iblk1_apply m c t o').trans (V_v4_apply m c o')
  have h2 : (fun (f : Fin 1280) (o' : Fin 256) => iblk m c 2 t (ix2 f o')) = wsOf (argW m c) :=
    funext fun f => funext fun o' => (iblk2_apply m c t f o').trans (V_v6_apply m c f o')
  have h3 : (fun o' : Fin 256 => iblk m c 3 t (ix2 (0 : Fin 1) o')) = bsOf (argB m c) :=
    funext fun o' => (iblk3_apply m c t o').trans (V_v8_apply m c o')
  show out0_4 (grid0.coords t) (iblk m c 0 t) (iblk m c 1 t) (iblk m c 2 t) (iblk m c 3 t) (ix3 (0 : Fin 1) r o)
    = G (argX m c) (argW m c) (argB m c) (((cfg0.win 4).blk t).view.emb (ix3 (0 : Fin 1) r o))
  rw [hidx]
  refine (out0_4_apply (grid0.coords t) (iblk m c 0 t) (iblk m c 1 t) (iblk m c 2 t) (iblk m c 3 t) r o).trans ?_
  exact congrArg (fun s => outRow s o) (linRow_congr (prow_eq m c t r hb hn) h1 h2 h3)

/-! ## The blocks cover the array -/

/-- An index of the result array is in point `t`'s block iff each coordinate is in the block's range on its axis. -/
theorem mem_blk4 (t : Fin cfg0.N) (i : S16x4096x257.Idx) :
    i ∈ ((cfg0.win 4).blk t).view.set ↔ ∀ a : Fin 3, win0_4.index t a * S1x1024x257.size a ≤ (i a).val
      ∧ (i a).val < win0_4.index t a * S1x1024x257.size a + S1x1024x257.size a := by
  show i ∈ ((View.whole main_v9).slice (win0_4.rect t)).set ↔ _
  rw [View.set_slice_whole, Rect.mem_set_unit]
  exact Iff.rfl

/-- Entry (bi, n, o) lies in the block of point `4·bi + n / 1024`. -/
theorem cover4 (i : S16x4096x257.Idx) :
    ∃ t : Fin cfg0.N, (cfg0.win 4).flush t = true ∧ i ∈ ((cfg0.win 4).blk t).view.set := by
  have h0 : (i 0).val < 16 := (i 0).isLt
  have h1 : (i 1).val < 4096 := (i 1).isLt
  have h2 : (i 2).val < 257 := (i 2).isLt
  let t : Fin cfg0.N := ⟨4 * (i 0).val + (i 1).val / 1024, by show 4 * (i 0).val + (i 1).val / 1024 < 64; omega⟩
  obtain ⟨e0, e1, e2, -⟩ := idx_facts t
  have tv : t.val = 4 * (i 0).val + (i 1).val / 1024 := rfl
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 257 ≤ (i 2).val ∧ (i 2).val < win0_4.index t (2 : Fin 3) * 257 + 257; omega

/-- THE RESULT ARRAY after the run is `G` of @main's arguments. -/
theorem final4 (c : Dev nD) : (dats m 0 c).arrAt 4 cfg0.N = G (argX m c) (argW m c) (argB m c) :=
  (dats m 0 c).arrAt_eq_of_cover 4 (G (argX m c) (argW m c) (argB m c)) (fun t _ => flushed4_eq m c t) cover4

/-! ## The run, read -/

/-- The run of @main: the result array at `G` of the arguments, the arguments as launched. -/
theorem run : θ_run defs (onTc (τ := τ) (main (F := Ideal))) ⟨m, fun _ => 0, ρ⟩ fun r => ∀ c : Dev nD,
      r.2.mem ((c : Thread nD τ).loc main_v9) = G (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Final

end
-- ==== Proof.RefRunAB.lean ====
/-
  The reference's run, first half: what the operations up to the patch stage, and then up to the projected row, leave in
  the one buffer the next stretch reads.

  @main's operation list is cut where a single buffer carries everything forward. Stretch A (operations 1–24: the pad,
  the slice, the window indices, the gather, the reshape) leaves the patch stage in `main_v18` as a function of the
  input `main_arg0` alone and writes neither weight argument. Stretch B (operations 25–38: the squares, the row sum, the
  time coordinate, the joined row, the product with the weights, the bias, the slice) leaves in `main_v30` a function
  `stageB` of `main_v18`, the weights `main_arg1` and the bias `main_arg2`; over the patch stage `stageB` is the stage
  `val_main_v30`. Each fact is over an arbitrary valuation, so a stretch sees its inputs as opaque contents.
-/
import proofs.«426489_j21199958573237_3_alg».proof.Proof.RefOpsP
import proofs.«426489_j21199958573237_3_alg».proof.Proof.RefStagesP
import Idealize.ShloMosaic.Lib.StableHlo.Run

noncomputable section

namespace Cert.ReferenceIdeal.RunS

open Cert.ReferenceIdeal Cert.ReferenceIdeal.Gen Idealize.ShloMosaic Idealize.ShloMosaic.TcCoe Idealize.SL.Sem Idealize.ShloMosaic.StableHlo

variable {F : FTy → Type} [FloatOps F]

/-- Operations 1–24 of @main: up to the reshape into `main_v18`. -/
abbrev opsA : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S16x8192x257, .f32⟩) main_arg0) (TRef.of (T := ⟨S_, .f32⟩) main_call0_v0) (TRef.of (T := ⟨S16x8196x257, .f32⟩) main_v0) (fun x v => pad S16x8196x257 ![0, 2, 0] ![0, 2, 0] ![0, 0, 0] x v pads_S16x8192x257_S16x8196x257_000_220_000 h_S_),
    unary main_v0 main_v1 ((extractStridedSlice S16x8196x256 ![0, 0, 1] · slices_S16x8196x257_S16x8196x256_0_0_1) : (⟨S16x8196x257, .f32⟩ : BufTy).Contents (Elt F) → (⟨S16x8196x256, .f32⟩ : BufTy).Contents (Elt F)),
    nullary main_v2 (iotaInDim S4096 32 0),
    unary main_v2 main_v3 (broadcastInDim S4096x1 ![0] bcast_S4096_S4096x1_0 : (⟨S4096, .i32⟩ : BufTy).Contents (Elt F) → (⟨S4096x1, .i32⟩ : BufTy).Contents (Elt F)),
    nullary main_c_0 (constantI S_ 32 2#32),
    unary main_c_0 main_v4 (broadcastInDim S4096x1 ![] bcast_S_S4096x1 : (⟨S_, .i32⟩ : BufTy).Contents (Elt F) → (⟨S4096x1, .i32⟩ : BufTy).Contents (Elt F)),
    binary main_v3 main_v4 main_v5 (muli : (⟨S4096x1, .i32⟩ : BufTy).Contents (Elt F) → (⟨S4096x1, .i32⟩ : BufTy).Contents (Elt F) → (⟨S4096x1, .i32⟩ : BufTy).Contents (Elt F)),
    nullary main_v6 (iotaInDim S5 32 0),
    unary main_v6 main_v7 (broadcastInDim S1x5 ![1] bcast_S5_S1x5_1 : (⟨S5, .i32⟩ : BufTy).Contents (Elt F) → (⟨S1x5, .i32⟩ : BufTy).Contents (Elt F)),
    unary main_v5 main_v8 (broadcastInDim S4096x5 ![0, 1] bcast_S4096x1_S4096x5_0_1 : (⟨S4096x1, .i32⟩ : BufTy).Contents (Elt F) → (⟨S4096x5, .i32⟩ : BufTy).Contents (Elt F)),
    unary main_v7 main_v9 (broadcastInDim S4096x5 ![0, 1] bcast_S1x5_S4096x5_0_1 : (⟨S1x5, .i32⟩ : BufTy).Contents (Elt F) → (⟨S4096x5, .i32⟩ : BufTy).Contents (Elt F)),
    binary main_v8 main_v9 main_v10 (addi : (⟨S4096x5, .i32⟩ : BufTy).Contents (Elt F) → (⟨S4096x5, .i32⟩ : BufTy).Contents (Elt F) → (⟨S4096x5, .i32⟩ : BufTy).Contents (Elt F)),
    nullary main_c_1 (constantI S_ 32 0#32),
    unary main_c_1 main_v11 (broadcastInDim S4096x5 ![] bcast_S_S4096x5 : (⟨S_, .i32⟩ : BufTy).Contents (Elt F) → (⟨S4096x5, .i32⟩ : BufTy).Contents (Elt F)),
    binary main_v10 main_v11 main_v12 (cmpi .slt : (⟨S4096x5, .i32⟩ : BufTy).Contents (Elt F) → (⟨S4096x5, .i32⟩ : BufTy).Contents (Elt F) → (⟨S4096x5, .i1⟩ : BufTy).Contents (Elt F)),
    nullary main_c_2 (constantI S_ 32 8196#32),
    unary main_c_2 main_v13 (broadcastInDim S4096x5 ![] bcast_S_S4096x5 : (⟨S_, .i32⟩ : BufTy).Contents (Elt F) → (⟨S4096x5, .i32⟩ : BufTy).Contents (Elt F)),
    binary main_v10 main_v13 main_v14 (addi : (⟨S4096x5, .i32⟩ : BufTy).Contents (Elt F) → (⟨S4096x5, .i32⟩ : BufTy).Contents (Elt F) → (⟨S4096x5, .i32⟩ : BufTy).Contents (Elt F)),
    ternary main_v12 main_v14 main_v10 main_v15 (select : (⟨S4096x5, .i1⟩ : BufTy).Contents (Elt F) → (⟨S4096x5, .i32⟩ : BufTy).Contents (Elt F) → (⟨S4096x5, .i32⟩ : BufTy).Contents (Elt F) → (⟨S4096x5, .i32⟩ : BufTy).Contents (Elt F)),
    unary main_v15 main_v16 (broadcastInDim S4096x5x1 ![0, 1] bcast_S4096x5_S4096x5x1_0_1 : (⟨S4096x5, .i32⟩ : BufTy).Contents (Elt F) → (⟨S4096x5x1, .i32⟩ : BufTy).Contents (Elt F)),
    binary main_v1 main_v16 main_v17 ((fun x i => Host.gather gather_S16x8196x256_S4096x5x1_S16x4096x5x256_03_1_n_n_1_2_161256 x i) : (⟨S16x8196x256, .f32⟩ : BufTy).Contents (Elt F) → (⟨S4096x5x1, .i32⟩ : BufTy).Contents (Elt F) → (⟨S16x4096x5x256, .f32⟩ : BufTy).Contents (Elt F)),
    reshape main_v17 main_v18 rfl shapeCasts_S16x4096x5x256_S16x4096x1280 ]

/-- Operations 25–38 of @main: from the squares to the slice into `main_v30`. -/
abbrev opsB : List (HloOp τ sig (Elt F)) :=
  [ binary main_v18 main_v18 main_v19 (mulf : (⟨S16x4096x1280, .f32⟩ : BufTy).Contents (Elt F) → (⟨S16x4096x1280, .f32⟩ : BufTy).Contents (Elt F) → (⟨S16x4096x1280, .f32⟩ : BufTy).Contents (Elt F)),
    nullary main_cst (constant S_ .f32 0x00000000#32),
    binary main_v19 main_cst main_v20 ((fun x v => Host.reduceAdd x v reducesTo_S16x4096x1280_S16x4096_d2 h_S_) : (⟨S16x4096x1280, .f32⟩ : BufTy).Contents (Elt F) → (⟨S_, .f32⟩ : BufTy).Contents (Elt F) → (⟨S16x4096, .f32⟩ : BufTy).Contents (Elt F)),
    unary main_v20 main_v21 (broadcastInDim S16x4096x1 ![0, 1] bcast_S16x4096_S16x4096x1_0_1 : (⟨S16x4096, .f32⟩ : BufTy).Contents (Elt F) → (⟨S16x4096x1, .f32⟩ : BufTy).Contents (Elt F)),
    nullary main_cst_3 (constant S_ .f32 0x3F800000#32),
    unary main_cst_3 main_v22 (broadcastInDim S16x4096x1 ![] bcast_S_S16x4096x1 : (⟨S_, .f32⟩ : BufTy).Contents (Elt F) → (⟨S16x4096x1, .f32⟩ : BufTy).Contents (Elt F)),
    binary main_v22 main_v21 main_v23 (addf : (⟨S16x4096x1, .f32⟩ : BufTy).Contents (Elt F) → (⟨S16x4096x1, .f32⟩ : BufTy).Contents (Elt F) → (⟨S16x4096x1, .f32⟩ : BufTy).Contents (Elt F)),
    unary main_v23 main_v24 (Host.sqrt : (⟨S16x4096x1, .f32⟩ : BufTy).Contents (Elt F) → (⟨S16x4096x1, .f32⟩ : BufTy).Contents (Elt F)),
    binary main_v24 main_v18 main_v25 ((fun a b => concatenate S16x4096x1281 2 [⟨S16x4096x1, a⟩, ⟨S16x4096x1280, b⟩] concatenates_S16x4096x1_S16x4096x1280_S16x4096x1281_d2) : (⟨S16x4096x1, .f32⟩ : BufTy).Contents (Elt F) → (⟨S16x4096x1280, .f32⟩ : BufTy).Contents (Elt F) → (⟨S16x4096x1281, .f32⟩ : BufTy).Contents (Elt F)),
    binary main_v25 main_arg1 main_v26 ((fun l r => Host.dotGeneral dot_S16x4096x1281_S257x1281_S16x4096x257_2_1_01_0_n_n none l r) : (⟨S16x4096x1281, .f32⟩ : BufTy).Contents (Elt F) → (⟨S257x1281, .f32⟩ : BufTy).Contents (Elt F) → (⟨S16x4096x257, .f32⟩ : BufTy).Contents (Elt F)),
    unary main_arg2 main_v27 (broadcastInDim S1x1x257 ![2] bcast_S257_S1x1x257_2 : (⟨S257, .f32⟩ : BufTy).Contents (Elt F) → (⟨S1x1x257, .f32⟩ : BufTy).Contents (Elt F)),
    unary main_v27 main_v28 (broadcastInDim S16x4096x257 ![0, 1, 2] bcast_S1x1x257_S16x4096x257_0_1_2 : (⟨S1x1x257, .f32⟩ : BufTy).Contents (Elt F) → (⟨S16x4096x257, .f32⟩ : BufTy).Contents (Elt F)),
    binary main_v26 main_v28 main_v29 (addf : (⟨S16x4096x257, .f32⟩ : BufTy).Contents (Elt F) → (⟨S16x4096x257, .f32⟩ : BufTy).Contents (Elt F) → (⟨S16x4096x257, .f32⟩ : BufTy).Contents (Elt F)),
    unary main_v29 main_v30 ((extractStridedSlice S16x4096x256 ![0, 0, 1] · slices_S16x4096x257_S16x4096x256_0_0_1) : (⟨S16x4096x257, .f32⟩ : BufTy).Contents (Elt F) → (⟨S16x4096x256, .f32⟩ : BufTy).Contents (Elt F)) ]

/-- Operations 25–38 composed, over the patch stage `p`, the weights `x1` and the bias `x2`: the time coordinate
    `√(1 + Σ p²)` joined in front of `p`, times the weights, plus the bias, without its first channel. -/
def stageB (p : (⟨S16x4096x1280, .f32⟩ : BufTy).Contents (Elt F)) (x1 : (⟨S257x1281, .f32⟩ : BufTy).Contents (Elt F))
    (x2 : (⟨S257, .f32⟩ : BufTy).Contents (Elt F)) : (⟨S16x4096x256, .f32⟩ : BufTy).Contents (Elt F) :=
  extractStridedSlice S16x4096x256 ![0, 0, 1]
    (addf
      (Host.dotGeneral dot_S16x4096x1281_S257x1281_S16x4096x257_2_1_01_0_n_n none
        (concatenate S16x4096x1281 2
          [⟨S16x4096x1, Host.sqrt (addf (broadcastInDim S16x4096x1 ![] bcast_S_S16x4096x1 (constant S_ .f32 0x3F800000#32))
              (broadcastInDim S16x4096x1 ![0, 1] bcast_S16x4096_S16x4096x1_0_1
                (Host.reduceAdd (mulf p p) (constant S_ .f32 0x00000000#32) reducesTo_S16x4096x1280_S16x4096_d2 h_S_)))⟩,
           ⟨S16x4096x1280, p⟩]
          concatenates_S16x4096x1_S16x4096x1280_S16x4096x1281_d2)
        x1)
      (broadcastInDim S16x4096x257 ![0, 1, 2] bcast_S1x1x257_S16x4096x257_0_1_2
        (broadcastInDim S1x1x257 ![2] bcast_S257_S1x1x257_2 x2)))
    slices_S16x4096x257_S16x4096x256_0_0_1

/-- Over the patch stage, `stageB` is the stage `val_main_v30`. -/
theorem stageB_eq (x0 : (⟨S16x8192x257, .f32⟩ : BufTy).Contents (Elt F)) (x1 : (⟨S257x1281, .f32⟩ : BufTy).Contents (Elt F))
    (x2 : (⟨S257, .f32⟩ : BufTy).Contents (Elt F)) :
    ReadP.val_main_v30 (F := F) x0 x1 x2 = stageB (ReadP.val_main_v18 (F := F) x0) x1 x2 := rfl

set_option maxHeartbeats 2000000 in
/-- After stretch A the buffer `main_v18` holds the patch stage of the input. -/
theorem afterA (V : Valuation τ sig (Elt F)) :
    after opsA V (Proc.devRef .tc main_v18) = ReadP.val_main_v18 (F := F) (V (Proc.devRef .tc main_arg0)) := by
  after_results_simp
  simp only [TRef.ofBuf, TRef.toBuf, cast_eq]
  rfl

/-- No operation of stretch A writes the weights … -/
theorem afterA_arg1 (V : Valuation τ sig (Elt F)) :
    after opsA V (Proc.devRef .tc main_arg1) = V (Proc.devRef .tc main_arg1) :=
  after_of_forall_not_mem (b := Proc.devRef .tc main_arg1) _ _ (List.forall_iff_forall_mem.mp (by
    simp only [opsA, List.Forall, nullary_writes, unary_writes, binary_writes, ternary_writes, reshape_writes, Finset.mem_singleton]
    repeat' apply And.intro
    all_goals exact devRef_ne_of_ne (by decide)))

/-- … nor the bias. -/
theorem afterA_arg2 (V : Valuation τ sig (Elt F)) :
    after opsA V (Proc.devRef .tc main_arg2) = V (Proc.devRef .tc main_arg2) :=
  after_of_forall_not_mem (b := Proc.devRef .tc main_arg2) _ _ (List.forall_iff_forall_mem.mp (by
    simp only [opsA, List.Forall, nullary_writes, unary_writes, binary_writes, ternary_writes, reshape_writes, Finset.mem_singleton]
    repeat' apply And.intro
    all_goals exact devRef_ne_of_ne (by decide)))

/-- After stretch B the buffer `main_v30` holds `stageB` of what `main_v18`, the weights and the bias held before it. -/
theorem afterB (W : Valuation τ sig (Elt F)) :
    after opsB W (Proc.devRef .tc main_v30)
      = stageB (W (Proc.devRef .tc main_v18)) (W (Proc.devRef .tc main_arg1)) (W (Proc.devRef .tc main_arg2)) := by
  after_results
  rfl

end Cert.ReferenceIdeal.RunS

end
-- ==== Proof.RefRunS.lean ====
/-
  The reference's run, second half, and the whole: what the operations from the projected row on leave in the one buffer the
  next stretch reads, and @main's run as the last stage of its three arguments.

  @main's operation list is cut where a single buffer carries everything forward. Stretch C (operations 39–48: the
  squares of the projected row, their row sum, one plus it, the square root, that time coordinate joined in front of the
  row, and the slice that drops it again) leaves in `main_v38` a function `stageC` of `main_v30` alone. Stretch D
  (operations 49–73: the row's norm, the cap factor `min 1 (1000 / max ‖s‖ 1e-8)`, the rescaled row, its time coordinate
  joined in front of it) leaves in `main_v57` a function `stageD` of `main_v38` alone. Over the stages, `stageC` and
  `stageD` are `val_main_v38` and `val_main_v57`. The four stretches in a row are the whole list, so after it the result
  buffer holds `val_main_v57` of the three arguments; no operation writes an argument.
-/
import proofs.«426489_j21199958573237_3_alg».proof.Proof.RefRunAB
import proofs.«426489_j21199958573237_3_alg».proof.Proof.RefOpsP
import proofs.«426489_j21199958573237_3_alg».proof.Proof.RefStagesP
import Idealize.ShloMosaic.Lib.StableHlo.Run
import Idealize.ShloMosaic.Lib.Pipeline.Frame

noncomputable section

namespace Cert.ReferenceIdeal.RunS

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- Operations 39–48 of @main: from the squares of the projected row to the slice into `main_v38`. -/
abbrev opsC : List (HloOp τ sig (Elt F)) :=
  [ binary main_v30 main_v30 main_v31 (mulf : (⟨S16x4096x256, .f32⟩ : BufTy).Contents (Elt F) → (⟨S16x4096x256, .f32⟩ : BufTy).Contents (Elt F) → (⟨S16x4096x256, .f32⟩ : BufTy).Contents (Elt F)),
    nullary main_cst_4 (constant S_ .f32 0x00000000#32),
    binary main_v31 main_cst_4 main_v32 ((fun x v => Host.reduceAdd x v reducesTo_S16x4096x256_S16x4096_d2 h_S_) : (⟨S16x4096x256, .f32⟩ : BufTy).Contents (Elt F) → (⟨S_, .f32⟩ : BufTy).Contents (Elt F) → (⟨S16x4096, .f32⟩ : BufTy).Contents (Elt F)),
    unary main_v32 main_v33 (broadcastInDim S16x4096x1 ![0, 1] bcast_S16x4096_S16x4096x1_0_1 : (⟨S16x4096, .f32⟩ : BufTy).Contents (Elt F) → (⟨S16x4096x1, .f32⟩ : BufTy).Contents (Elt F)),
    nullary main_cst_5 (constant S_ .f32 0x3F800000#32),
    unary main_cst_5 main_v34 (broadcastInDim S16x4096x1 ![] bcast_S_S16x4096x1 : (⟨S_, .f32⟩ : BufTy).Contents (Elt F) → (⟨S16x4096x1, .f32⟩ : BufTy).Contents (Elt F)),
    binary main_v34 main_v33 main_v35 (addf : (⟨S16x4096x1, .f32⟩ : BufTy).Contents (Elt F) → (⟨S16x4096x1, .f32⟩ : BufTy).Contents (Elt F) → (⟨S16x4096x1, .f32⟩ : BufTy).Contents (Elt F)),
    unary main_v35 main_v36 (Host.sqrt : (⟨S16x4096x1, .f32⟩ : BufTy).Contents (Elt F) → (⟨S16x4096x1, .f32⟩ : BufTy).Contents (Elt F)),
    binary main_v36 main_v30 main_v37 ((fun a b => concatenate S16x4096x257 2 [⟨S16x4096x1, a⟩, ⟨S16x4096x256, b⟩] concatenates_S16x4096x1_S16x4096x256_S16x4096x257_d2) : (⟨S16x4096x1, .f32⟩ : BufTy).Contents (Elt F) → (⟨S16x4096x256, .f32⟩ : BufTy).Contents (Elt F) → (⟨S16x4096x257, .f32⟩ : BufTy).Contents (Elt F)),
    unary main_v37 main_v38 ((extractStridedSlice S16x4096x256 ![0, 0, 1] · slices_S16x4096x257_S16x4096x256_0_0_1) : (⟨S16x4096x257, .f32⟩ : BufTy).Contents (Elt F) → (⟨S16x4096x256, .f32⟩ : BufTy).Contents (Elt F)) ]

/-- Operations 49–73 of @main: from the squares of `main_v38` to the joined result `main_v57`. -/
abbrev opsD : List (HloOp τ sig (Elt F)) :=
  [ binary main_v38 main_v38 main_v39 (mulf : (⟨S16x4096x256, .f32⟩ : BufTy).Contents (Elt F) → (⟨S16x4096x256, .f32⟩ : BufTy).Contents (Elt F) → (⟨S16x4096x256, .f32⟩ : BufTy).Contents (Elt F)),
    nullary main_cst_6 (constant S_ .f32 0x00000000#32),
    binary main_v39 main_cst_6 main_v40 ((fun x v => Host.reduceAdd x v reducesTo_S16x4096x256_S16x4096_d2 h_S_) : (⟨S16x4096x256, .f32⟩ : BufTy).Contents (Elt F) → (⟨S_, .f32⟩ : BufTy).Contents (Elt F) → (⟨S16x4096, .f32⟩ : BufTy).Contents (Elt F)),
    unary main_v40 main_v41 (broadcastInDim S16x4096x1 ![0, 1] bcast_S16x4096_S16x4096x1_0_1 : (⟨S16x4096, .f32⟩ : BufTy).Contents (Elt F) → (⟨S16x4096x1, .f32⟩ : BufTy).Contents (Elt F)),
    unary main_v41 main_v42 (Host.sqrt : (⟨S16x4096x1, .f32⟩ : BufTy).Contents (Elt F) → (⟨S16x4096x1, .f32⟩ : BufTy).Contents (Elt F)),
    nullary main_cst_7 (constant S_ .f32 0x322BCC77#32),
    unary main_cst_7 main_v43 (broadcastInDim S16x4096x1 ![] bcast_S_S16x4096x1 : (⟨S_, .f32⟩ : BufTy).Contents (Elt F) → (⟨S16x4096x1, .f32⟩ : BufTy).Contents (Elt F)),
    binary main_v42 main_v43 main_v44 (maximumf : (⟨S16x4096x1, .f32⟩ : BufTy).Contents (Elt F) → (⟨S16x4096x1, .f32⟩ : BufTy).Contents (Elt F) → (⟨S16x4096x1, .f32⟩ : BufTy).Contents (Elt F)),
    nullary main_cst_8 (constant S_ .f32 0x447A0000#32),
    unary main_cst_8 main_v45 (broadcastInDim S16x4096x1 ![] bcast_S_S16x4096x1 : (⟨S_, .f32⟩ : BufTy).Contents (Elt F) → (⟨S16x4096x1, .f32⟩ : BufTy).Contents (Elt F)),
    binary main_v45 main_v44 main_v46 (Host.divf : (⟨S16x4096x1, .f32⟩ : BufTy).Contents (Elt F) → (⟨S16x4096x1, .f32⟩ : BufTy).Contents (Elt F) → (⟨S16x4096x1, .f32⟩ : BufTy).Contents (Elt F)),
    nullary main_cst_9 (constant S_ .f32 0x3F800000#32),
    unary main_cst_9 main_v47 (broadcastInDim S16x4096x1 ![] bcast_S_S16x4096x1 : (⟨S_, .f32⟩ : BufTy).Contents (Elt F) → (⟨S16x4096x1, .f32⟩ : BufTy).Contents (Elt F)),
    binary main_v47 main_v46 main_v48 (minimumf : (⟨S16x4096x1, .f32⟩ : BufTy).Contents (Elt F) → (⟨S16x4096x1, .f32⟩ : BufTy).Contents (Elt F) → (⟨S16x4096x1, .f32⟩ : BufTy).Contents (Elt F)),
    unary main_v48 main_v49 (broadcastInDim S16x4096x256 ![0, 1, 2] bcast_S16x4096x1_S16x4096x256_0_1_2 : (⟨S16x4096x1, .f32⟩ : BufTy).Contents (Elt F) → (⟨S16x4096x256, .f32⟩ : BufTy).Contents (Elt F)),
    binary main_v38 main_v49 main_v50 (mulf : (⟨S16x4096x256, .f32⟩ : BufTy).Contents (Elt F) → (⟨S16x4096x256, .f32⟩ : BufTy).Contents (Elt F) → (⟨S16x4096x256, .f32⟩ : BufTy).Contents (Elt F)),
    binary main_v50 main_v50 main_v51 (mulf : (⟨S16x4096x256, .f32⟩ : BufTy).Contents (Elt F) → (⟨S16x4096x256, .f32⟩ : BufTy).Contents (Elt F) → (⟨S16x4096x256, .f32⟩ : BufTy).Contents (Elt F)),
    nullary main_cst_10 (constant S_ .f32 0x00000000#32),
    binary main_v51 main_cst_10 main_v52 ((fun x v => Host.reduceAdd x v reducesTo_S16x4096x256_S16x4096_d2 h_S_) : (⟨S16x4096x256, .f32⟩ : BufTy).Contents (Elt F) → (⟨S_, .f32⟩ : BufTy).Contents (Elt F) → (⟨S16x4096, .f32⟩ : BufTy).Contents (Elt F)),
    unary main_v52 main_v53 (broadcastInDim S16x4096x1 ![0, 1] bcast_S16x4096_S16x4096x1_0_1 : (⟨S16x4096, .f32⟩ : BufTy).Contents (Elt F) → (⟨S16x4096x1, .f32⟩ : BufTy).Contents (Elt F)),
    nullary main_cst_11 (constant S_ .f32 0x3F800000#32),
    unary main_cst_11 main_v54 (broadcastInDim S16x4096x1 ![] bcast_S_S16x4096x1 : (⟨S_, .f32⟩ : BufTy).Contents (Elt F) → (⟨S16x4096x1, .f32⟩ : BufTy).Contents (Elt F)),
    binary main_v54 main_v53 main_v55 (addf : (⟨S16x4096x1, .f32⟩ : BufTy).Contents (Elt F) → (⟨S16x4096x1, .f32⟩ : BufTy).Contents (Elt F) → (⟨S16x4096x1, .f32⟩ : BufTy).Contents (Elt F)),
    unary main_v55 main_v56 (Host.sqrt : (⟨S16x4096x1, .f32⟩ : BufTy).Contents (Elt F) → (⟨S16x4096x1, .f32⟩ : BufTy).Contents (Elt F)),
    binary main_v56 main_v50 main_v57 ((fun a b => concatenate S16x4096x257 2 [⟨S16x4096x1, a⟩, ⟨S16x4096x256, b⟩] concatenates_S16x4096x1_S16x4096x256_S16x4096x257_d2) : (⟨S16x4096x1, .f32⟩ : BufTy).Contents (Elt F) → (⟨S16x4096x256, .f32⟩ : BufTy).Contents (Elt F) → (⟨S16x4096x257, .f32⟩ : BufTy).Contents (Elt F)) ]

/-! ## Stretch C as functions of the projected row `s`

  `c31` the squares, `c32` their row sum, `c33` that sum as a column, `c35` one plus it, `c36` the square root (the row's
  time coordinate), `c37` the time coordinate joined in front of `s`, `stageC` that array without its first channel. -/
def c31 (s : (⟨S16x4096x256, .f32⟩ : BufTy).Contents (Elt F)) : (⟨S16x4096x256, .f32⟩ : BufTy).Contents (Elt F) :=
  mulf s s
def c32 (s : (⟨S16x4096x256, .f32⟩ : BufTy).Contents (Elt F)) : (⟨S16x4096, .f32⟩ : BufTy).Contents (Elt F) :=
  Host.reduceAdd (c31 (F := F) s) (val_main_cst_4 (F := F)) reducesTo_S16x4096x256_S16x4096_d2 h_S_
def c33 (s : (⟨S16x4096x256, .f32⟩ : BufTy).Contents (Elt F)) : (⟨S16x4096x1, .f32⟩ : BufTy).Contents (Elt F) :=
  broadcastInDim S16x4096x1 ![0, 1] bcast_S16x4096_S16x4096x1_0_1 (c32 (F := F) s)
def c35 (s : (⟨S16x4096x256, .f32⟩ : BufTy).Contents (Elt F)) : (⟨S16x4096x1, .f32⟩ : BufTy).Contents (Elt F) :=
  addf (val_main_v34 (F := F)) (c33 (F := F) s)
def c36 (s : (⟨S16x4096x256, .f32⟩ : BufTy).Contents (Elt F)) : (⟨S16x4096x1, .f32⟩ : BufTy).Contents (Elt F) :=
  Host.sqrt (c35 (F := F) s)
def c37 (s : (⟨S16x4096x256, .f32⟩ : BufTy).Contents (Elt F)) : (⟨S16x4096x257, .f32⟩ : BufTy).Contents (Elt F) :=
  concatenate S16x4096x257 2 [⟨S16x4096x1, (c36 (F := F) s)⟩, ⟨S16x4096x256, s⟩] concatenates_S16x4096x1_S16x4096x256_S16x4096x257_d2
def stageC (s : (⟨S16x4096x256, .f32⟩ : BufTy).Contents (Elt F)) : (⟨S16x4096x256, .f32⟩ : BufTy).Contents (Elt F) :=
  extractStridedSlice S16x4096x256 ![0, 0, 1] (c37 (F := F) s) slices_S16x4096x257_S16x4096x256_0_0_1

/-! ## Stretch D as functions of the row `s`

  `d39` the squares, `d40` their row sum, `d41` that sum as a column, `d42` the norm `‖s‖`, `d44` `max ‖s‖ 1e-8`,
  `d46` `1000 / max ‖s‖ 1e-8`, `d48` the cap factor `min 1 (…)`, `d49` the factor along the row, `d50` the rescaled row,
  `d51` its squares, `d52` their row sum, `d53` that sum as a column, `d55` one plus it, `d56` the square root (the rescaled
  row's time coordinate), `stageD` the time coordinate joined in front of the rescaled row. -/
def d39 (s : (⟨S16x4096x256, .f32⟩ : BufTy).Contents (Elt F)) : (⟨S16x4096x256, .f32⟩ : BufTy).Contents (Elt F) :=
  mulf s s
def d40 (s : (⟨S16x4096x256, .f32⟩ : BufTy).Contents (Elt F)) : (⟨S16x4096, .f32⟩ : BufTy).Contents (Elt F) :=
  Host.reduceAdd (d39 (F := F) s) (val_main_cst_6 (F := F)) reducesTo_S16x4096x256_S16x4096_d2 h_S_
def d41 (s : (⟨S16x4096x256, .f32⟩ : BufTy).Contents (Elt F)) : (⟨S16x4096x1, .f32⟩ : BufTy).Contents (Elt F) :=
  broadcastInDim S16x4096x1 ![0, 1] bcast_S16x4096_S16x4096x1_0_1 (d40 (F := F) s)
def d42 (s : (⟨S16x4096x256, .f32⟩ : BufTy).Contents (Elt F)) : (⟨S16x4096x1, .f32⟩ : BufTy).Contents (Elt F) :=
  Host.sqrt (d41 (F := F) s)
def d44 (s : (⟨S16x4096x256, .f32⟩ : BufTy).Contents (Elt F)) : (⟨S16x4096x1, .f32⟩ : BufTy).Contents (Elt F) :=
  maximumf (d42 (F := F) s) (val_main_v43 (F := F))
def d46 (s : (⟨S16x4096x256, .f32⟩ : BufTy).Contents (Elt F)) : (⟨S16x4096x1, .f32⟩ : BufTy).Contents (Elt F) :=
  Host.divf (val_main_v45 (F := F)) (d44 (F := F) s)
def d48 (s : (⟨S16x4096x256, .f32⟩ : BufTy).Contents (Elt F)) : (⟨S16x4096x1, .f32⟩ : BufTy).Contents (Elt F) :=
  minimumf (val_main_v47 (F := F)) (d46 (F := F) s)
def d49 (s : (⟨S16x4096x256, .f32⟩ : BufTy).Contents (Elt F)) : (⟨S16x4096x256, .f32⟩ : BufTy).Contents (Elt F) :=
  broadcastInDim S16x4096x256 ![0, 1, 2] bcast_S16x4096x1_S16x4096x256_0_1_2 (d48 (F := F) s)
def d50 (s : (⟨S16x4096x256, .f32⟩ : BufTy).Contents (Elt F)) : (⟨S16x4096x256, .f32⟩ : BufTy).Contents (Elt F) :=
  mulf s (d49 (F := F) s)
def d51 (s : (⟨S16x4096x256, .f32⟩ : BufTy).Contents (Elt F)) : (⟨S16x4096x256, .f32⟩ : BufTy).Contents (Elt F) :=
  mulf (d50 (F := F) s) (d50 (F := F) s)
def d52 (s : (⟨S16x4096x256, .f32⟩ : BufTy).Contents (Elt F)) : (⟨S16x4096, .f32⟩ : BufTy).Contents (Elt F) :=
  Host.reduceAdd (d51 (F := F) s) (val_main_cst_10 (F := F)) reducesTo_S16x4096x256_S16x4096_d2 h_S_
def d53 (s : (⟨S16x4096x256, .f32⟩ : BufTy).Contents (Elt F)) : (⟨S16x4096x1, .f32⟩ : BufTy).Contents (Elt F) :=
  broadcastInDim S16x4096x1 ![0, 1] bcast_S16x4096_S16x4096x1_0_1 (d52 (F := F) s)
def d55 (s : (⟨S16x4096x256, .f32⟩ : BufTy).Contents (Elt F)) : (⟨S16x4096x1, .f32⟩ : BufTy).Contents (Elt F) :=
  addf (val_main_v54 (F := F)) (d53 (F := F) s)
def d56 (s : (⟨S16x4096x256, .f32⟩ : BufTy).Contents (Elt F)) : (⟨S16x4096x1, .f32⟩ : BufTy).Contents (Elt F) :=
  Host.sqrt (d55 (F := F) s)
def stageD (s : (⟨S16x4096x256, .f32⟩ : BufTy).Contents (Elt F)) : (⟨S16x4096x257, .f32⟩ : BufTy).Contents (Elt F) :=
  concatenate S16x4096x257 2 [⟨S16x4096x1, (d56 (F := F) s)⟩, ⟨S16x4096x256, (d50 (F := F) s)⟩] concatenates_S16x4096x1_S16x4096x256_S16x4096x257_d2

/-- Over the projected-row stage, `stageC` is the stage `val_main_v38`. -/
theorem stageC_eq (x0 : (⟨S16x8192x257, .f32⟩ : BufTy).Contents (Elt F)) (x1 : (⟨S257x1281, .f32⟩ : BufTy).Contents (Elt F))
    (x2 : (⟨S257, .f32⟩ : BufTy).Contents (Elt F)) :
    val_main_v38 (F := F) x0 x1 x2 = stageC (val_main_v30 (F := F) x0 x1 x2) := rfl

/-- Over the stage `val_main_v38`, `stageD` is the last stage `val_main_v57`. -/
theorem stageD_eq (x0 : (⟨S16x8192x257, .f32⟩ : BufTy).Contents (Elt F)) (x1 : (⟨S257x1281, .f32⟩ : BufTy).Contents (Elt F))
    (x2 : (⟨S257, .f32⟩ : BufTy).Contents (Elt F)) :
    val_main_v57 (F := F) x0 x1 x2 = stageD (val_main_v38 (F := F) x0 x1 x2) := rfl

/-- After stretch C the buffer `main_v38` holds `stageC` of what `main_v30` held before it. -/
theorem afterC (W : Valuation τ sig (Elt F)) :
    after (opsC (F := F)) W (Proc.devRef .tc main_v38) = stageC (W (Proc.devRef .tc main_v30)) := by
  after_results
  rfl

/-- After stretch D the buffer `main_v57` holds `stageD` of what `main_v38` held before it. -/
theorem afterD (W : Valuation τ sig (Elt F)) :
    after (opsD (F := F)) W (Proc.devRef .tc main_v57) = stageD (W (Proc.devRef .tc main_v38)) := by
  after_results_simp
  rfl

/-- The four stretches in a row are @main's operation list. -/
theorem ops_split : (ValueP.ops (F := F)) = opsA ++ opsB ++ opsC ++ opsD := rfl

/-- After the whole list the result buffer holds the last stage of the three arguments: each stretch hands its one
    buffer to the next, and the first writes neither the weights nor the bias. -/
theorem after_v57 (V : Valuation τ sig (Elt F)) :
    after (ValueP.ops (F := F)) V (Proc.devRef .tc main_v57)
      = val_main_v57 (F := F) (V (Proc.devRef .tc main_arg0)) (V (Proc.devRef .tc main_arg1)) (V (Proc.devRef .tc main_arg2)) := by
  rw [ops_split, StableHlo.after_append, StableHlo.after_append, StableHlo.after_append, afterD, afterC, afterB, afterA,
    afterA_arg1, afterA_arg2, stageD_eq, stageC_eq, stageB_eq]

/-- No operation of @main writes the input: after the whole list it holds what it held … -/
theorem after_arg0 (V : Valuation τ sig (Elt F)) :
    after (ValueP.ops (F := F)) V (Proc.devRef .tc main_arg0) = V (Proc.devRef .tc main_arg0) :=
  after_of_forall_not_mem (b := Proc.devRef .tc main_arg0) _ _ (List.forall_iff_forall_mem.mp (by
    simp only [ValueP.ops, List.Forall, nullary_writes, unary_writes, binary_writes, ternary_writes, reshape_writes, Finset.mem_singleton]
    repeat' apply And.intro
    all_goals exact devRef_ne_of_ne (by decide)))

/-- … and so do the weights … -/
theorem after_arg1 (V : Valuation τ sig (Elt F)) :
    after (ValueP.ops (F := F)) V (Proc.devRef .tc main_arg1) = V (Proc.devRef .tc main_arg1) :=
  after_of_forall_not_mem (b := Proc.devRef .tc main_arg1) _ _ (List.forall_iff_forall_mem.mp (by
    simp only [ValueP.ops, List.Forall, nullary_writes, unary_writes, binary_writes, ternary_writes, reshape_writes, Finset.mem_singleton]
    repeat' apply And.intro
    all_goals exact devRef_ne_of_ne (by decide)))

/-- … and the bias. -/
theorem after_arg2 (V : Valuation τ sig (Elt F)) :
    after (ValueP.ops (F := F)) V (Proc.devRef .tc main_arg2) = V (Proc.devRef .tc main_arg2) :=
  after_of_forall_not_mem (b := Proc.devRef .tc main_arg2) _ _ (List.forall_iff_forall_mem.mp (by
    simp only [ValueP.ops, List.Forall, nullary_writes, unary_writes, binary_writes, ternary_writes, reshape_writes, Finset.mem_singleton]
    repeat' apply And.intro
    all_goals exact devRef_ne_of_ne (by decide)))

/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = val_main_v57 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v57).trans (after_v57 _), (h c main_arg0).trans (after_arg0 _),
      (h c main_arg1).trans (after_arg1 _), (h c main_arg2).trans (after_arg2 _)⟩)
    (run_seq ValueP.scopedRefs_eq ValueP.scopedSems_eq defs main (fun _ => ValueP.ops) ValueP.main_eq (fun _ => ValueP.ops_sub) m ρ)

end Cert.ReferenceIdeal.RunS

end
-- ==== Proof.LibGatherMid.lean ====
/-
  A gather along the middle axis of a rank-3 array, read at an index.

  The operand is an A × N × C array, the start indices an R × K × 1 array of integer words, the result A × R × K × C.
  The dimension numbers are the ones a windowed read `x[:, idx, :]` prints: the result's axes 0 and 3 are the offset
  axes (they run over the operand's axes 0 and 2 in full), the operand's axis 1 is collapsed and is the one axis the
  start index names, there are no batching axes, and the start indices' last axis (of size one) is the index vector's.
  Then the result's entry (a, r, k, c) is the operand's entry (a, m, c), where m is the start index at (r, k, 0) read
  as a signed integer and clamped into [0, N − 1].
-/
import Idealize.ShloMosaic.PureOps.ShapeOps
import Idealize.ShloMosaic.Lib.ValueIdx

noncomputable section

namespace GatherMid

open Idealize.ShloMosaic Idealize.ShloMosaic.ValueIdx

variable {α : Type} {A N C R K w : Nat}

/-- The dimension numbers of the middle-axis gather, as equations on a record's lists: offset axes `[0, 3]`, collapsed
    operand axis `[1]`, no batching axes, start index map `[1]`, index vector on axis `2`. A printed record with these
    lists satisfies each by `rfl`. -/
structure IsMid (d : GatherDims ⟨3, ![A, N, C]⟩ ⟨3, ![R, K, 1]⟩ ⟨4, ![A, R, K, C]⟩) : Prop where
  offsetDims : d.offsetDims = [0, 3]
  collapsedSliceDims : d.collapsedSliceDims = [1]
  operandBatchingDims : d.operandBatchingDims = []
  startIndexMap : d.startIndexMap = [1]
  indexVectorDim : d.indexVectorDim = 2

/-- THE MIDDLE-AXIS GATHER READ AT `(a, r, k, c)`: the operand at `(a, m, c)`, where `m` is the start index
    `idx[r, k, 0]` read signed and clamped into `[0, N − 1]`. -/
theorem gather_apply (d : GatherDims ⟨3, ![A, N, C]⟩ ⟨3, ![R, K, 1]⟩ ⟨4, ![A, R, K, C]⟩) (hd : IsMid d) (hN : 0 < N)
    (x : (⟨3, ![A, N, C]⟩ : Shape).Idx → α) (idx : IVec ⟨3, ![R, K, 1]⟩ w)
    (a : Fin A) (r : Fin R) (k : Fin K) (c : Fin C) :
    Host.gather d x idx (ix4 a r k c)
      = x (ix3 a ⟨min (idx (ix3 r k (0 : Fin 1))).toInt.toNat (N - 1), by omega⟩ c) := by
  obtain ⟨hoff, hcoll, hob, hsim, hivd⟩ := hd
  have hsl : d.sliceSizes 1 = 1 := d.slice_collapsed 1 (by rw [hcoll]; exact List.mem_singleton.mpr rfl)
  obtain ⟨od, cd, ob, sb, sim, ivd, ss, wf⟩ := d
  dsimp only at hoff hcoll hob hsim hivd hsl
  subst hoff hcoll hob hsim hivd
  unfold Host.gather
  congr 1
  funext e
  apply Fin.ext
  match e with
  | ⟨0, _⟩ => show 0 + 0 + a.val = a.val; omega
  | ⟨1, _⟩ =>
    show min _ (N - ss 1) + 0 + 0 = min _ (N - 1)
    rw [hsl]
    show min _ (N - 1) = min _ (N - 1)
    congr 3
    congr 1
    funext b
    match b with
    | ⟨0, _⟩ => rfl
    | ⟨1, _⟩ => rfl
    | ⟨2, _⟩ => rfl
  | ⟨2, _⟩ => show 0 + 0 + c.val = c.val; omega

end GatherMid

end
-- ==== Proof.RefPatch.lean ====
/-
  The reference's patches: the gathered and reshaped space channels, read at an entry, are the specification's patch.
-/
import proofs.«426489_j21199958573237_3_alg».proof.Proof.RefStagesP
import proofs.«426489_j21199958573237_3_alg».proof.Proof.RowSpec
import proofs.«426489_j21199958573237_3_alg».proof.Proof.LibPad
import proofs.«426489_j21199958573237_3_alg».proof.Proof.LibGatherMid
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.ReferenceIdeal.RefPatch

open Cert.ReferenceIdeal Cert.ReferenceIdeal.Gen Cert.ReferenceIdeal.ReadP Cert.RowSpec
open Idealize.ShloMosaic Idealize.ShloMosaic.TcCoe Idealize.ShloMosaic.ValueIdx

/-! ## The window index as a word -/

/-- `n · 2 + k` computed on 32-bit words is the word of the number `2n + k` (nothing wraps: `2n + k < 8196`). -/
theorem win_word (n k : Nat) (hn : n < 4096) (hk : k < 5) :
    IntOp.addi (IntOp.muli (BitVec.ofNat 32 n) 2#32) (BitVec.ofNat 32 k) = BitVec.ofNat 32 (2 * n + k) := by
  apply BitVec.eq_of_toNat_eq
  simp only [IntOp.addi, IntOp.muli, BitVec.toNat_add, BitVec.toNat_mul, BitVec.toNat_ofNat]
  omega

/-- The word of a number below `2³¹` is not negative: its signed compare against zero is the bit `0`. -/
theorem slt_zero_small (m : Nat) (hm : m < 2 ^ 31) : IntOp.cmpi .slt (BitVec.ofNat 32 m) 0#32 = 0#1 := by
  apply eq_zero_of_ne_one
  intro h
  have := (StableHlo.Predicate.slt_iff_toNat (a := BitVec.ofNat 32 m) (b := 0#32)
    (by simp only [BitVec.toNat_ofNat]; omega) (by decide)).mp h
  simp at this

/-- So the wrap-around select (add the length to a negative index) leaves such a word as it is. -/
theorem wrap_small (m : Nat) (hm : m < 2 ^ 31) (y : BitVec 32) :
    Scalar.select (IntOp.cmpi .slt (BitVec.ofNat 32 m) 0#32) y (BitVec.ofNat 32 m) = BitVec.ofNat 32 m := by
  rw [slt_zero_small m hm, select_zero]

/-- The word of a number below `2³¹`, read as a signed integer and then as a natural number, is the number. -/
theorem toInt_toNat_small (m : Nat) (hm : m < 2 ^ 31) : (BitVec.ofNat 32 m).toInt.toNat = m := by
  rw [StableHlo.Predicate.toInt_ofNat_small m hm]; rfl

/-! ## The stages at an entry -/

variable {F : FTy → Type} [FloatOps F]

/-- The window indices before the wrap-around select: entry `(n, k)` is the word of `2n + k`. -/
theorem v10_apply (n : Fin 4096) (k : Fin 5) :
    val_main_v10 (F := F) (ix2 n k) = BitVec.ofNat 32 (2 * n.val + k.val) := by
  rw [val_main_v10_apply, val_main_v8_apply, val_main_v5_apply, val_main_v3_apply, val_main_v2_apply, val_main_v4_apply,
    val_main_c_0_apply, val_main_v9_apply, val_main_v7_apply, val_main_v6_apply]
  exact win_word n.val k.val n.isLt k.isLt

/-- The start indices handed to the gather: entry `(n, k, 0)` is still the word of `2n + k`. -/
theorem v16_apply (n : Fin 4096) (k : Fin 5) :
    val_main_v16 (F := F) (ix3 n k (0 : Fin 1)) = BitVec.ofNat 32 (2 * n.val + k.val) := by
  have hi : idx_main_v16 (ix3 n k (0 : Fin 1)) = ix2 n k := by
    funext e; match e with | ⟨0, _⟩ => rfl | ⟨1, _⟩ => rfl
  rw [val_main_v16_apply, hi, val_main_v15_apply, val_main_v12_apply, val_main_v11_apply, val_main_c_1_apply, v10_apply]
  exact wrap_small _ (by have := n.isLt; have := k.isLt; omega) _

/-- The gathered windows: entry `(bi, n, k, c)` is the sliced padded input at row `2n + k`, channel `c`. -/
theorem v17_apply (x0 : (⟨S16x8192x257, .f32⟩ : BufTy).Contents (Elt F)) (bi : Fin 16) (n : Fin 4096) (k : Fin 5)
    (c : Fin 256) :
    val_main_v17 (F := F) x0 (ix4 bi n k c)
      = val_main_v1 (F := F) x0 (ix3 bi ⟨2 * n.val + k.val, by have := n.isLt; have := k.isLt; omega⟩ c) := by
  unfold val_main_v17
  rw [GatherMid.gather_apply _ ⟨rfl, rfl, rfl, rfl, rfl⟩ (by decide)]
  congr 1
  funext e
  apply Fin.ext
  match e with
  | ⟨0, _⟩ => rfl
  | ⟨1, _⟩ =>
    show min (val_main_v16 (F := F) (ix3 n k (0 : Fin 1))).toInt.toNat (8196 - 1) = 2 * n.val + k.val
    rw [v16_apply, toInt_toNat_small _ (by have := n.isLt; have := k.isLt; omega)]
    have := n.isLt; have := k.isLt; omega
  | ⟨2, _⟩ => rfl

/-- The sliced padded input: entry `(bi, r, c)` is the specification's space channel `c` at padded row `r`. -/
theorem v1_apply (x0 : (⟨S16x8192x257, .f32⟩ : BufTy).Contents (Elt Ideal)) (bi : Fin 16) (r : Fin 8196) (c : Fin 256) :
    val_main_v1 (F := Ideal) x0 (ix3 bi r c) = xsp x0 padv bi r.val c := by
  have hi : idx_main_v1 (ix3 bi r c) = ix3 bi r ⟨1 + c.val, by have := c.isLt; omega⟩ := by
    funext e; match e with | ⟨0, _⟩ => rfl | ⟨1, _⟩ => rfl | ⟨2, _⟩ => rfl
  rw [val_main_v1_apply, hi]
  unfold val_main_v0
  rw [PadMid.pad_apply]
  unfold xsp
  by_cases hr : 2 ≤ r.val ∧ r.val < 8194
  · rw [dif_pos hr, dif_pos ⟨hr.1, by omega⟩]
    congr 1
    funext e
    apply Fin.ext
    match e with
    | ⟨0, _⟩ => rfl
    | ⟨1, _⟩ => rfl
    | ⟨2, _⟩ => show 1 + c.val = c.val + 1; omega
  · rw [dif_neg hr, dif_neg (by intro h; exact hr ⟨h.1, by omega⟩)]
    rfl

/-- THE PATCH STAGE AT AN ENTRY: batch `bi`, frame `n`, feature `f = 256·k + c` reads the padded input's row
    `2n + k`, space channel `c` (the window index `2n + k` is never negative and never past the padded length, so the
    wrap-around select and the gather's clamp leave it as it is). -/
theorem v18_apply (x0 : (⟨S16x8192x257, .f32⟩ : BufTy).Contents (Elt Ideal)) (bi : Fin 16) (n : Fin 4096) (f : Fin 1280) :
    val_main_v18 (F := Ideal) x0 (ix3 bi n f) = patch x0 padv bi n f := by
  have hi : idx_main_v18 (ix3 bi n f)
      = ix4 bi n ⟨f.val / 256, by have := f.isLt; omega⟩ ⟨f.val % 256, Nat.mod_lt _ (by decide)⟩ := by
    have hb := bi.isLt; have hn := n.isLt; have hf := f.isLt
    funext e
    apply Fin.ext
    match e with
    | ⟨0, _⟩ => show ((bi.val * 4096 + n.val) * 1280 + f.val) / 5242880 = bi.val; omega
    | ⟨1, _⟩ => show ((bi.val * 4096 + n.val) * 1280 + f.val) / 1280 % 4096 = n.val; omega
    | ⟨2, _⟩ => show ((bi.val * 4096 + n.val) * 1280 + f.val) / 256 % 5 = f.val / 256; omega
    | ⟨3, _⟩ => show ((bi.val * 4096 + n.val) * 1280 + f.val) % 256 = f.val % 256; omega
  rw [val_main_v18_apply, hi, v17_apply, v1_apply]
  rfl

end Cert.ReferenceIdeal.RefPatch

end
-- ==== Proof.LibConcatLast.lean ====
/-
  A two-piece concatenation along the last axis of rank-3 arrays, a one-wide head and an N-wide tail, read at an entry:
  the entry at last coordinate 0 is the head's entry, and the entry at last coordinate o + 1 is the tail's entry at o.
-/
import Idealize.ShloMosaic.Lib.Pipeline.Value
import Idealize.ShloMosaic.Lib.ValueIdx

namespace Idealize.ShloMosaic.ConcatLast

open Idealize.ShloMosaic Idealize.ShloMosaic.ValueIdx

variable {α : Type}

/-- The concatenation of a head of last extent 1 and a tail of last extent `N` along the last axis, read where the last
    coordinate is 0: the head's entry with the same two leading coordinates. -/
theorem concat_head {A B N M : Nat} (h : (⟨3, ![A, B, 1]⟩ : Shape).Idx → α) (t : (⟨3, ![A, B, N]⟩ : Shape).Idx → α)
    (hc : Shape.Concatenates [(⟨3, ![A, B, 1]⟩ : Shape), ⟨3, ![A, B, N]⟩] ⟨3, ![A, B, M]⟩ 2)
    (a : Fin A) (b : Fin B) (o : Fin M) (ho : o.val = 0) :
    concatenate (⟨3, ![A, B, M]⟩ : Shape) 2 [⟨⟨3, ![A, B, 1]⟩, h⟩, ⟨⟨3, ![A, B, N]⟩, t⟩] hc (ix3 a b o)
      = h (ix3 a b ⟨0, Nat.one_pos⟩) :=
  concatenate_pair_apply_left 2 h t hc (ix3 a b o) rfl (ix3 a b ⟨0, Nat.one_pos⟩) (fun d => by
    match d with
    | ⟨0, _⟩ => rfl
    | ⟨1, _⟩ => rfl
    | ⟨2, _⟩ => exact ho.symm)

/-- The same concatenation read where the last coordinate is `o' + 1`: the tail's entry at last coordinate `o'`, with
    the same two leading coordinates. -/
theorem concat_tail {A B N M : Nat} (h : (⟨3, ![A, B, 1]⟩ : Shape).Idx → α) (t : (⟨3, ![A, B, N]⟩ : Shape).Idx → α)
    (hc : Shape.Concatenates [(⟨3, ![A, B, 1]⟩ : Shape), ⟨3, ![A, B, N]⟩] ⟨3, ![A, B, M]⟩ 2)
    (a : Fin A) (b : Fin B) (o : Fin M) (o' : Fin N) (ho : o'.val + 1 = o.val) :
    concatenate (⟨3, ![A, B, M]⟩ : Shape) 2 [⟨⟨3, ![A, B, 1]⟩, h⟩, ⟨⟨3, ![A, B, N]⟩, t⟩] hc (ix3 a b o)
      = t (ix3 a b o') :=
  concatenate_pair_apply_right 2 h t hc (ix3 a b o) rfl rfl (ix3 a b o') (fun d hd => by
    match d, hd with
    | ⟨0, _⟩, _ => rfl
    | ⟨1, _⟩, _ => rfl
    | ⟨2, _⟩, hd => exact absurd rfl hd) ho

end Idealize.ShloMosaic.ConcatLast
-- ==== Proof.RefTail.lean ====
/-
  The reference from its patches on: time coordinate, projection, rescaling, read at an entry as the specification's row
  functions of the patch stage's row.

  With p the patch stage's row (bi, n): stage 24 is the time coordinate of p; stage 25 is that coordinate followed by p; stage 26
  contracts it with W's rows, so that with the bias and the first channel dropped stage 30 is the specification's projected
  row s; stage 38 drops the leading entry of "time coordinate, then s" and is s again; stage 48 is the cap factor of s;
  stage 50 is s times it; stage 56 is the time coordinate of that row, and stage 57 puts it in front of the row.
-/
import proofs.«426489_j21199958573237_3_alg».proof.Proof.RefStagesP
import proofs.«426489_j21199958573237_3_alg».proof.Proof.RowSpec
import proofs.«426489_j21199958573237_3_alg».proof.Proof.LibConcatLast
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefTail

open Cert.ReferenceIdeal Cert.ReferenceIdeal.Gen Cert.ReferenceIdeal.ReadP Cert.RowSpec
open Idealize.ShloMosaic Idealize.ShloMosaic.TcCoe Idealize.ShloMosaic.ValueIdx Idealize.ShloMosaic.ConcatLast

/-! ## The specification's row functions from their parts -/

/-- A square root of one plus a sum that starts from the zero word is the time coordinate of the summed row. -/
theorem time_congr {m : Nat} (s : Fin m → EReal) (S : EReal) (h : S = ∑ k : Fin m, s k * s k) :
    Ideal.sqrt (Ideal.ofBits .f32 0x3F800000#32 + (Ideal.ofBits .f32 0x00000000#32 + S)) = time s := by
  subst h; rw [Ideal.ofBits_zero_f32, zero_add]; rfl

/-- The cap factor of a row from its sum of squares, the sum starting from the zero word. -/
theorem scale_congr (s : Fin 256 → EReal) (S : EReal) (h : S = ∑ k : Fin 256, s k * s k) :
    min (Ideal.ofBits .f32 0x3F800000#32) (Ideal.div (Ideal.ofBits .f32 0x447A0000#32)
      (max (Ideal.sqrt (Ideal.ofBits .f32 0x00000000#32 + S)) (Ideal.ofBits .f32 0x322BCC77#32))) = scale s := by
  subst h; rw [Ideal.ofBits_zero_f32, zero_add]; rfl

/-- The projected row at a channel from its three parts. -/
theorem linRow_congr (p : Fin 1280 → EReal) (wt : Fin 256 → EReal) (ws : Fin 1280 → Fin 256 → EReal) (bs : Fin 256 → EReal)
    (o : Fin 256) (A B C : EReal) (hA : A = time p * wt o) (hB : B = ∑ f : Fin 1280, p f * ws f o) (hC : C = bs o) :
    A + B + C = linRow p wt ws bs o := by
  subst hA hB hC; rfl

/-! ## The stages at an entry of row (bi, n) -/

section Stages

variable (x0 : (⟨S16x8192x257, .f32⟩ : BufTy).Contents (Elt Ideal)) (x1 : (⟨S257x1281, .f32⟩ : BufTy).Contents (Elt Ideal))
  (x2 : (⟨S257, .f32⟩ : BufTy).Contents (Elt Ideal)) (bi : Fin 16) (n : Fin 4096)

/-- The time coordinate of a patch row `p`: stage 24 at (bi, n, ·) is `√(1 + Σ p²)`. -/
theorem v24_at (p : Fin 1280 → EReal) (hp : ∀ f, val_main_v18 (F := Ideal) x0 (ix3 bi n f) = p f) (z : Fin 1) :
    val_main_v24 (F := Ideal) x0 (ix3 bi n z) = time p := by
  have e1 : idx_main_v21 (ix3 bi n z) = ix2 bi n :=
    funext fun a => Fin.ext (by match a with | ⟨0, _⟩ => rfl | ⟨1, _⟩ => rfl)
  have e2 : ∀ k : Fin 1280, idx_main_v20 (ix2 bi n) k = ix3 bi n k := fun k =>
    funext fun a => Fin.ext (by match a with | ⟨0, _⟩ => rfl | ⟨1, _⟩ => rfl | ⟨2, _⟩ => rfl)
  rw [val_main_v24_apply, val_main_v23_apply, val_main_v22_apply, val_main_cst_3_apply, val_main_v21_apply, e1,
    val_main_v20_apply, val_main_cst_apply]
  simp only [Ideal.hostUnary_sqrt_def, Ideal.addf_def, Ideal.ofBits_def]
  exact time_congr p _ (Finset.sum_congr rfl fun k _ => by rw [e2 k, val_main_v19_apply, hp]; rfl)

/-- The time coordinate leads the extended patch row: stage 25 at feature 0. -/
theorem v25_zero (p : Fin 1280 → EReal) (hp : ∀ f, val_main_v18 (F := Ideal) x0 (ix3 bi n f) = p f) :
    val_main_v25 (F := Ideal) x0 (ix3 bi n (0 : Fin 1281)) = time p := by
  unfold val_main_v25
  exact (concat_head _ _ _ bi n (0 : Fin 1281) rfl).trans (v24_at x0 bi n p hp _)

/-- The patch follows it: stage 25 at feature `f + 1`. -/
theorem v25_succ (p : Fin 1280 → EReal) (hp : ∀ f, val_main_v18 (F := Ideal) x0 (ix3 bi n f) = p f) (f : Fin 1280) :
    val_main_v25 (F := Ideal) x0 (ix3 bi n f.succ) = p f := by
  unfold val_main_v25
  exact (concat_tail _ _ _ bi n f.succ f rfl).trans (hp f)

/-- The projected row: stage 30 at (bi, n, o') is the time coordinate against W's column 0, plus the patch against
    W's columns 1 … 1280, plus the bias, all at output channel `o' + 1`. -/
theorem v30_at (p : Fin 1280 → EReal) (hp : ∀ f, val_main_v18 (F := Ideal) x0 (ix3 bi n f) = p f) (o' : Fin 256) :
    val_main_v30 (F := Ideal) x0 x1 x2 (ix3 bi n o') = linRow p (wtOf x1) (wsOf x1) (bsOf x2) o' := by
  have e30 : idx_main_v30 (ix3 bi n o') = ix3 bi n (⟨o'.val + 1, by omega⟩ : Fin 257) :=
    funext fun a => Fin.ext (by match a with | ⟨0, _⟩ => rfl | ⟨1, _⟩ => rfl | ⟨2, _⟩ => exact Nat.add_comm 1 o'.val)
  have eL : ∀ k : Fin 1281, lidx_main_v26 (ix3 bi n (⟨o'.val + 1, by omega⟩ : Fin 257)) k = ix3 bi n k := fun k =>
    funext fun a => Fin.ext (by match a with | ⟨0, _⟩ => rfl | ⟨1, _⟩ => rfl | ⟨2, _⟩ => rfl)
  have eR : ∀ k : Fin 1281, ridx_main_v26 (ix3 bi n (⟨o'.val + 1, by omega⟩ : Fin 257)) k
      = ix2 (⟨o'.val + 1, by omega⟩ : Fin 257) k := fun k =>
    funext fun a => Fin.ext (by match a with | ⟨0, _⟩ => rfl | ⟨1, _⟩ => rfl)
  have eB : idx_main_v27 (idx_main_v28 (ix3 bi n (⟨o'.val + 1, by omega⟩ : Fin 257)))
      = ix1 (⟨o'.val + 1, by omega⟩ : Fin 257) :=
    funext fun a => Fin.ext (by match a with | ⟨0, _⟩ => rfl)
  rw [val_main_v30_apply, e30, val_main_v29_apply, val_main_v26_apply, val_main_v28_apply, val_main_v27_apply, eB,
    Fin.sum_univ_succ]
  simp only [Ideal.addf_def]
  refine linRow_congr p (wtOf x1) (wsOf x1) (bsOf x2) o' _ _ _ ?_ (Finset.sum_congr rfl fun f _ => ?_) rfl
  · exact congrArg₂ (· * ·) ((congrArg (val_main_v25 (F := Ideal) x0) (eL 0)).trans (v25_zero x0 bi n p hp))
      (congrArg x1 (eR 0))
  · exact congrArg₂ (· * ·) ((congrArg (val_main_v25 (F := Ideal) x0) (eL f.succ)).trans (v25_succ x0 bi n p hp f))
      (congrArg x1 (eR f.succ))

/-- Dropping the leading entry of "time coordinate, then the row" gives the row back: stage 38 is stage 30. -/
theorem v38_at (o' : Fin 256) :
    val_main_v38 (F := Ideal) x0 x1 x2 (ix3 bi n o') = val_main_v30 (F := Ideal) x0 x1 x2 (ix3 bi n o') := by
  have e38 : idx_main_v38 (ix3 bi n o') = ix3 bi n (⟨o'.val + 1, by omega⟩ : Fin 257) :=
    funext fun a => Fin.ext (by match a with | ⟨0, _⟩ => rfl | ⟨1, _⟩ => rfl | ⟨2, _⟩ => exact Nat.add_comm 1 o'.val)
  rw [val_main_v38_apply, e38]
  unfold val_main_v37
  exact concat_tail _ _ _ bi n _ o' rfl

/-- The cap factor of a row `s`: stage 48 at (bi, n, ·) is `min 1 (1000 / max ‖s‖ 1e-8)`. -/
theorem v48_at (s : Fin 256 → EReal) (hs : ∀ o', val_main_v38 (F := Ideal) x0 x1 x2 (ix3 bi n o') = s o') (z : Fin 1) :
    val_main_v48 (F := Ideal) x0 x1 x2 (ix3 bi n z) = scale s := by
  have e1 : idx_main_v41 (ix3 bi n z) = ix2 bi n :=
    funext fun a => Fin.ext (by match a with | ⟨0, _⟩ => rfl | ⟨1, _⟩ => rfl)
  have e2 : ∀ k : Fin 256, idx_main_v40 (ix2 bi n) k = ix3 bi n k := fun k =>
    funext fun a => Fin.ext (by match a with | ⟨0, _⟩ => rfl | ⟨1, _⟩ => rfl | ⟨2, _⟩ => rfl)
  rw [val_main_v48_apply, val_main_v47_apply, val_main_cst_9_apply, val_main_v46_apply, val_main_v45_apply,
    val_main_cst_8_apply, val_main_v44_apply, val_main_v43_apply, val_main_cst_7_apply, val_main_v42_apply,
    val_main_v41_apply, e1, val_main_v40_apply, val_main_cst_6_apply]
  simp only [Ideal.hostUnary_sqrt_def, Ideal.hostDivf_def, Ideal.maximumf_def, Ideal.minimumf_def, Ideal.ofBits_def]
  exact scale_congr s _ (Finset.sum_congr rfl fun k _ => by rw [e2 k, val_main_v39_apply, hs]; rfl)

/-- The rescaled row: stage 50 at (bi, n, o') is `s o'` times the cap factor. -/
theorem v50_at (s : Fin 256 → EReal) (hs : ∀ o', val_main_v38 (F := Ideal) x0 x1 x2 (ix3 bi n o') = s o') (o' : Fin 256) :
    val_main_v50 (F := Ideal) x0 x1 x2 (ix3 bi n o') = s o' * scale s := by
  have e49 : idx_main_v49 (ix3 bi n o') = ix3 bi n (⟨0, Nat.one_pos⟩ : Fin 1) :=
    funext fun a => Fin.ext (by match a with | ⟨0, _⟩ => rfl | ⟨1, _⟩ => rfl | ⟨2, _⟩ => rfl)
  rw [val_main_v50_apply, val_main_v49_apply, e49, v48_at x0 x1 x2 bi n s hs, hs]
  rfl

/-- The time coordinate of the rescaled row: stage 56 at (bi, n, ·). -/
theorem v56_at (s : Fin 256 → EReal) (hs : ∀ o', val_main_v38 (F := Ideal) x0 x1 x2 (ix3 bi n o') = s o') (z : Fin 1) :
    val_main_v56 (F := Ideal) x0 x1 x2 (ix3 bi n z) = time (fun k => s k * scale s) := by
  have e1 : idx_main_v53 (ix3 bi n z) = ix2 bi n :=
    funext fun a => Fin.ext (by match a with | ⟨0, _⟩ => rfl | ⟨1, _⟩ => rfl)
  have e2 : ∀ k : Fin 256, idx_main_v52 (ix2 bi n) k = ix3 bi n k := fun k =>
    funext fun a => Fin.ext (by match a with | ⟨0, _⟩ => rfl | ⟨1, _⟩ => rfl | ⟨2, _⟩ => rfl)
  rw [val_main_v56_apply, val_main_v55_apply, val_main_v54_apply, val_main_cst_11_apply, val_main_v53_apply, e1,
    val_main_v52_apply, val_main_cst_10_apply]
  simp only [Ideal.hostUnary_sqrt_def, Ideal.addf_def, Ideal.ofBits_def]
  exact time_congr _ _ (Finset.sum_congr rfl fun k _ => by
    rw [e2 k, val_main_v51_apply, v50_at x0 x1 x2 bi n s hs]; rfl)

end Stages

/-- THE RESULT AT AN ENTRY from the patch stage: entry (bi, n, o) is the specification's result row of the projected
    row of the patch stage's row (bi, n), against W and b. -/
theorem v57_apply (x0 : (⟨S16x8192x257, .f32⟩ : BufTy).Contents (Elt Ideal)) (x1 : (⟨S257x1281, .f32⟩ : BufTy).Contents (Elt Ideal))
    (x2 : (⟨S257, .f32⟩ : BufTy).Contents (Elt Ideal)) (bi : Fin 16) (n : Fin 4096) (o : Fin 257) :
    val_main_v57 (F := Ideal) x0 x1 x2 (ix3 bi n o)
      = outRow (linRow (fun f => val_main_v18 (F := Ideal) x0 (ix3 bi n f)) (wtOf x1) (wsOf x1) (bsOf x2)) o := by
  -- the projected row of the patch stage's row, read at stage 38
  have hs : ∀ o', val_main_v38 (F := Ideal) x0 x1 x2 (ix3 bi n o')
      = linRow (fun f => val_main_v18 (F := Ideal) x0 (ix3 bi n f)) (wtOf x1) (wsOf x1) (bsOf x2) o' := fun o' =>
    (v38_at x0 x1 x2 bi n o').trans (v30_at x0 x1 x2 bi n _ (fun _ => rfl) o')
  have hlt := o.isLt
  unfold val_main_v57
  by_cases ho : o.val = 0
  · -- channel 0: the time coordinate of the rescaled row
    refine (concat_head _ _ _ bi n o ho).trans ?_
    rw [v56_at x0 x1 x2 bi n _ hs]
    show _ = dite (o.val = 0) _ _
    rw [dif_pos ho]
  · -- channel o ≥ 1: the rescaled row at o - 1
    refine (concat_tail _ _ _ bi n o ⟨o.val - 1, by omega⟩ (by show o.val - 1 + 1 = o.val; omega)).trans ?_
    rw [v50_at x0 x1 x2 bi n _ hs]
    show _ = dite (o.val = 0) _ _
    rw [dif_neg ho]

end Cert.ReferenceIdeal.RefTail

end
-- ==== Proof.lean ====
/-
  Equivalence over the extended reals of a fused Lorentz 1-d convolution kernel and its jnp reference.

  Both programs pad the length axis, keep the 256 space channels, unfold 5 taps at stride 2 into patches of 1280
  features, take the patch's time coordinate √(1 + Σp²), map (time, patch) linearly to output channels 1 … 256, rescale
  the row by min 1 (1000 / max ‖s‖ 1e-8) and prepend the time coordinate of the rescaled row. The kernel folds pairs of
  padded rows into 512 lanes and rebuilds each patch from five static slices of one aligned window read; it multiplies
  in bf16 and never computes output channel 0; the reference gathers the patches and computes all 257 channels before
  dropping the first. On the extended reals a change of float format is the identity, the matrix unit's product into a
  zero accumulator and the host's dot product are the same sum, and the 1281-term sum with its first term written apart
  is the same sum; no law used needs finiteness. Row by row both are the specification `Cert.RowSpec.G`.

  The kernel's frame is proved by running its body once at a generic grid point; its result array is read off that run
  block by block (point t writes frames 1024·(t mod 4) … of batch t / 4, and the blocks cover the array); the reference's run
  is followed stretch by stretch, cutting where one array carries everything (the patches, the projected rows, the rows
  before rescaling); both results are then identified with the specification entry by entry.
-/
import proofs.«426489_j21199958573237_3_alg».proof.Defs
import proofs.«426489_j21199958573237_3_alg».proof.Proof.Gen.Kernel
import proofs.«426489_j21199958573237_3_alg».proof.Proof.Gen.KernelIdeal
import proofs.«426489_j21199958573237_3_alg».proof.Proof.Gen.ReferenceIdeal
import proofs.«426489_j21199958573237_3_alg».proof.Proof.Gen.Pre_finite_inputs
import proofs.«426489_j21199958573237_3_alg».proof.Proof.KernelBody
import proofs.«426489_j21199958573237_3_alg».proof.Proof.KernelIdealBody
import proofs.«426489_j21199958573237_3_alg».proof.Proof.KernelFinal
import proofs.«426489_j21199958573237_3_alg».proof.Proof.RefStagesP
import proofs.«426489_j21199958573237_3_alg».proof.Proof.RefRunS
import proofs.«426489_j21199958573237_3_alg».proof.Proof.RefPatch
import proofs.«426489_j21199958573237_3_alg».proof.Proof.RefTail
import proofs.«426489_j21199958573237_3_alg».proof.Proof.RowSpec
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result stage is the specification, entry by entry: the tail of the chain over the patch stage,
    and the patch stage as the specification's patch. -/
theorem ref_is_G (x0 : (⟨Cert.ReferenceIdeal.S16x8192x257, .f32⟩ : BufTy).Contents (Elt Ideal))
    (x1 : (⟨Cert.ReferenceIdeal.S257x1281, .f32⟩ : BufTy).Contents (Elt Ideal))
    (x2 : (⟨Cert.ReferenceIdeal.S257, .f32⟩ : BufTy).Contents (Elt Ideal)) :
    Cert.ReferenceIdeal.ReadP.val_main_v57 (F := Ideal) x0 x1 x2 = Cert.RowSpec.G x0 x1 x2 := by
  funext j
  obtain ⟨bi, n, o, rfl⟩ : ∃ (bi : Fin 16) (n : Fin 4096) (o : Fin 257), j = ix3 bi n o := ⟨j 0, j 1, j 2, eq_ix3 j⟩
  refine (Cert.ReferenceIdeal.RefTail.v57_apply x0 x1 x2 bi n o).trans ?_
  have hp : (fun f : Fin 1280 => Cert.ReferenceIdeal.ReadP.val_main_v18 (F := Ideal) x0 (ix3 bi n f))
      = Cert.RowSpec.patch x0 Cert.RowSpec.padv bi n :=
    funext fun f => Cert.ReferenceIdeal.RefPatch.v18_apply x0 bi n f
  show Cert.RowSpec.outRow (Cert.RowSpec.linRow _ _ _ _) o = Cert.RowSpec.outRow (Cert.RowSpec.linRow _ _ _ _) o
  exact congrArg (fun s => Cert.RowSpec.outRow s o) (Cert.KernelIdeal.Final.linRow_congr hp rfl rfl rfl)

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.RunS.run (F := Ideal) m ρ)

/-- From memories agreeing on the arguments both programs end with the specification's array of those arguments. -/
theorem algebraic : Cert.algebraic_KernelIdeal_ReferenceIdeal := by
  intro m ρ m' ρ' _ hagree
  refine ⟨fun c => Cert.RowSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.RunS.run (F := Ideal) m' ρ')
  rw [ref_is_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
